-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩
abbrev S1x3200000 : Shape := ⟨2, ![1, 3200000]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_
  slices_S2x3200000_S1x3200000_0_0 : S2x3200000.Slices ![0, 0] S1x3200000
  shapeCasts_S1x3200000_S3200000 : S1x3200000.ShapeCasts S3200000

variable [Facts]

def fn_part2 {F : FTy → Type} [FloatOps F] (main_arg1 : IVec S2x3200000 32) (main_v28 : IVec S_ 1) (main_v33 : IVec S_ 1) : IVec S_ 1 :=
  let main_v34 : IVec S_ 1 := andi main_v28 main_v33
  let main_v35 : IVec S1x3200000 32 := (extractStridedSlice S1x3200000 ![0, 0] · slices_S2x3200000_S1x3200000_0_0) main_arg1
  let main_v36 : IVec S3200000 32 := shapeCast S3200000 main_v35 shapeCasts_S1x3200000_S3200000
  let main_c_12 : IVec S_ 32 := constantI S_ 32 100000#32
  let main_v37 : IVec S3200000 32 := broadcastInDim S3200000 ![] bcast_S_S3200000 main_c_12
  let main_v38 : IVec S3200000 1 := cmpi .slt main_v36 main_v37
  let main_c_13 : IVec S_ 1 := constantI S_ 1 1#1
  let main_v39 : IVec S_ 1 := (fun x v => Host.reduce IntOp.andi x v reducesTo_S3200000_S_d0 h_S_) main_v38 main_c_13
  let main_v40 : IVec S_ 1 := andi main_v34 main_v39
  main_v40

def fn_part1 {F : FTy → Type} [FloatOps F] (main_arg1 : IVec S2x3200000 32) (main_arg5 : FVec F S16x40 .f32) (main_arg6 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg5
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : IVec S1x3200000 32 := (extractStridedSlice S1x3200000 ![0, 0] · slices_S2x3200000_S1x3200000_0_0) main_arg1
  let main_v30 : IVec S3200000 32 := shapeCast S3200000 main_v29 shapeCasts_S1x3200000_S3200000
  let main_c_10 : IVec S_ 32 := constantI S_ 32 4294867296#32
  let main_v31 : IVec S3200000 32 := broadcastInDim S3200000 ![] bcast_S_S3200000 main_c_10
  let main_v32 : IVec S3200000 1 := cmpi .sge main_v30 main_v31
  let main_c_11 : IVec S_ 1 := constantI S_ 1 1#1
  let main_v33 : IVec S_ 1 := (fun x v => Host.reduce IntOp.andi x v reducesTo_S3200000_S_d0 h_S_) main_v32 main_c_11
  fn_part2 (F := F) main_arg1 main_v28 main_v33

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) (main_arg5 : FVec F S16x40 .f32) (main_arg6 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S100000x16 : Shape := ⟨2, ![100000, 16]⟩
abbrev S5000x512 : Shape := ⟨2, ![5000, 512]⟩
abbrev S5000x16 : Shape := ⟨2, ![5000, 16]⟩
abbrev S3200000x1 : Shape := ⟨2, ![3200000, 1]⟩
abbrev S_ : Shape := ⟨0, ![]⟩
abbrev S1 : Shape := ⟨1, ![1]⟩
abbrev S1x1 : Shape := ⟨2, ![1, 1]⟩
abbrev S3200000x16 : Shape := ⟨2, ![3200000, 16]⟩
abbrev S1x16 : Shape := ⟨2, ![1, 16]⟩
abbrev S100000x40 : Shape := ⟨2, ![100000, 40]⟩
abbrev S5000x40 : Shape := ⟨2, ![5000, 40]⟩
abbrev S3200000x40 : Shape := ⟨2, ![3200000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 76
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x40, .f32⟩
  | .hbm, ⟨6, _⟩ => ⟨S40, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000x16, .f32⟩
  | .hbm, ⟨12, _⟩ => ⟨S3200000x1, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S1, .i32⟩
  | .hbm, ⟨22, _⟩ => ⟨S_, .i32⟩
  | .hbm, ⟨23, _⟩ => ⟨S3200000x1, .i32⟩
  | .hbm, ⟨24, _⟩ => ⟨S3200000x1, .i1⟩
  | .hbm, ⟨25, _⟩ => ⟨S1x1, .i32⟩
  | .hbm, ⟨26, _⟩ => ⟨S3200000x1, .i32⟩
  | .hbm, ⟨27, _⟩ => ⟨S3200000x1, .i1⟩
  | .hbm, ⟨28, _⟩ => ⟨S3200000x1, .i1⟩
  | .hbm, ⟨29, _⟩ => ⟨S_, .i1⟩
  | .hbm, ⟨30, _⟩ => ⟨S3200000, .i1⟩
  | .hbm, ⟨31, _⟩ => ⟨S3200000x16, .f32⟩
  | .hbm, ⟨32, _⟩ => ⟨S3200000x16, .i1⟩
  | .hbm, ⟨33, _⟩ => ⟨S_, .f32⟩
  | .hbm, ⟨34, _⟩ => ⟨S3200000x16, .f32⟩
  | .hbm, ⟨35, _⟩ => ⟨S3200000x16, .f32⟩
  | .hbm, ⟨36, _⟩ => ⟨S3200000x16, .f32⟩
  | .hbm, ⟨37, _⟩ => ⟨S3200000x16, .f32⟩
  | .hbm, ⟨38, _⟩ => ⟨S_, .f32⟩
  | .hbm, ⟨39, _⟩ => ⟨S100000x16, .f32⟩
  | .hbm, ⟨40, _⟩ => ⟨S3200000x1, .i32⟩
  | .hbm, ⟨41, _⟩ => ⟨S100000x16, .f32⟩
  | .hbm, ⟨42, _⟩ => ⟨S1x16, .f32⟩
  | .hbm, ⟨43, _⟩ => ⟨S100000x40, .f32⟩
  | .hbm, ⟨44, _⟩ => ⟨S3200000x1, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S1, .i32⟩
  | .hbm, ⟨54, _⟩ => ⟨S_, .i32⟩
  | .hbm, ⟨55, _⟩ => ⟨S3200000x1, .i32⟩
  | .hbm, ⟨56, _⟩ => ⟨S3200000x1, .i1⟩
  | .hbm, ⟨57, _⟩ => ⟨S1x1, .i32⟩
  | .hbm, ⟨58, _⟩ => ⟨S3200000x1, .i32⟩
  | .hbm, ⟨59, _⟩ => ⟨S3200000x1, .i1⟩
  | .hbm, ⟨60, _⟩ => ⟨S3200000x1, .i1⟩
  | .hbm, ⟨61, _⟩ => ⟨S_, .i1⟩
  | .hbm, ⟨62, _⟩ => ⟨S3200000, .i1⟩
  | .hbm, ⟨63, _⟩ => ⟨S3200000x40, .f32⟩
  | .hbm, ⟨64, _⟩ => ⟨S3200000x40, .i1⟩
  | .hbm, ⟨65, _⟩ => ⟨S_, .f32⟩
  | .hbm, ⟨66, _⟩ => ⟨S3200000x40, .f32⟩
  | .hbm, ⟨67, _⟩ => ⟨S3200000x40, .f32⟩
  | .hbm, ⟨68, _⟩ => ⟨S3200000x40, .f32⟩
  | .hbm, ⟨69, _⟩ => ⟨S3200000x40, .f32⟩
  | .hbm, ⟨70, _⟩ => ⟨S_, .f32⟩
  | .hbm, ⟨71, _⟩ => ⟨S100000x40, .f32⟩
  | .hbm, ⟨72, _⟩ => ⟨S3200000x1, .i32⟩
  | .hbm, ⟨73, _⟩ => ⟨S100000x40, .f32⟩
  | .hbm, ⟨74, _⟩ => ⟨S1x40, .f32⟩
  | .hbm, ⟨75, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S16x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_cst_0 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x16_0 : S3200000.BroadcastsInDim S3200000x16 (![0] : Fin 1 → Fin S3200000x16.rank)
  bcast_S_S3200000x16 : S_.BroadcastsInDim S3200000x16 (![] : Fin 0 → Fin S3200000x16.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S3200000_S3200000x40_0 : S3200000.BroadcastsInDim S3200000x40 (![0] : Fin 1 → Fin S3200000x40.rank)
  bcast_S_S3200000x40 : S_.BroadcastsInDim S3200000x40 (![] : Fin 0 → Fin S3200000x40.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  dot_S5000x512_S512x16_S5000x16_1_0_0_1_n_n_wf : DotDims.WF S5000x512 S512x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x40_S5000x40_1_0_0_1_n_n_wf : DotDims.WF S5000x16 S16x40 S5000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .f32 = 32 ∨ (Rect.block (s := S16x40) S16x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v20) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S1x3200000 : Shape := ⟨2, ![1, 3200000]⟩
abbrev S3200000x1 : Shape := ⟨2, ![3200000, 1]⟩
abbrev S_ : Shape := ⟨0, ![]⟩
abbrev S3200000x16 : Shape := ⟨2, ![3200000, 16]⟩
abbrev S1x16 : Shape := ⟨2, ![1, 16]⟩
abbrev S100000x40 : Shape := ⟨2, ![100000, 40]⟩
abbrev S3200000x40 : Shape := ⟨2, ![3200000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 73
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x40, .f32⟩
  | .hbm, ⟨6, _⟩ => ⟨S40, .f32⟩
  | .hbm, ⟨7, _⟩ => ⟨S100000x16, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S3200000x1, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x16, .f32⟩
  | .hbm, ⟨22, _⟩ => ⟨S3200000x16, .f32⟩
  | .hbm, ⟨23, _⟩ => ⟨S3200000x16, .f32⟩
  | .hbm, ⟨24, _⟩ => ⟨S_, .f32⟩
  | .hbm, ⟨25, _⟩ => ⟨S100000x16, .f32⟩
  | .hbm, ⟨26, _⟩ => ⟨S3200000x1, .i32⟩
  | .hbm, ⟨27, _⟩ => ⟨S100000x16, .f32⟩
  | .hbm, ⟨28, _⟩ => ⟨S1x16, .f32⟩
  | .hbm, ⟨29, _⟩ => ⟨S100000x16, .f32⟩
  | .hbm, ⟨30, _⟩ => ⟨S100000x16, .f32⟩
  | .hbm, ⟨31, _⟩ => ⟨S_, .f32⟩
  | .hbm, ⟨32, _⟩ => ⟨S100000x16, .f32⟩
  | .hbm, ⟨33, _⟩ => ⟨S100000x16, .f32⟩
  | .hbm, ⟨34, _⟩ => ⟨S100000x40, .f32⟩
  | .hbm, ⟨35, _⟩ => ⟨S1x3200000, .i32⟩
  | .hbm, ⟨36, _⟩ => ⟨S3200000, .i32⟩
  | .hbm, ⟨37, _⟩ => ⟨S1x3200000, .i32⟩
  | .hbm, ⟨38, _⟩ => ⟨S3200000, .i32⟩
  | .hbm, ⟨39, _⟩ => ⟨S3200000x1, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x40, .f32⟩
  | .hbm, ⟨49, _⟩ => ⟨S3200000x40, .f32⟩
  | .hbm, ⟨50, _⟩ => ⟨S3200000x40, .f32⟩
  | .hbm, ⟨51, _⟩ => ⟨S_, .f32⟩
  | .hbm, ⟨52, _⟩ => ⟨S100000x40, .f32⟩
  | .hbm, ⟨53, _⟩ => ⟨S3200000x1, .i32⟩
  | .hbm, ⟨54, _⟩ => ⟨S100000x40, .f32⟩
  | .hbm, ⟨55, _⟩ => ⟨S1x40, .f32⟩
  | .hbm, ⟨56, _⟩ => ⟨S100000x40, .f32⟩
  | .hbm, ⟨57, _⟩ => ⟨S100000x40, .f32⟩
  | .hbm, ⟨58, _⟩ => ⟨S_, .f32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x40, .f32⟩
  | .hbm, ⟨65, _⟩ => ⟨S100000x40, .f32⟩
  | .hbm, ⟨66, _⟩ => ⟨S100000x40, .f32⟩
  | .hbm, ⟨67, _⟩ => ⟨S_, .f32⟩
  | .hbm, ⟨68, _⟩ => ⟨S100000, .f32⟩
  | .hbm, ⟨69, _⟩ => ⟨S100000x1, .f32⟩
  | .hbm, ⟨70, _⟩ => ⟨S100000x1, .f32⟩
  | .hbm, ⟨71, _⟩ => ⟨S100000x40, .f32⟩
  | .hbm, ⟨72, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_1 : Ref sig .tc := ⟨.hbm, 40, rfl⟩
abbrev main_v28 : Ref sig .tc := ⟨.hbm, 41, rfl⟩
abbrev main_v29 : Ref sig .tc := ⟨.hbm, 42, rfl⟩
abbrev main_c_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_cst : Ref sig .tc := ⟨.hbm, 58, rfl⟩
abbrev main_call1_v0 : Ref sig .tc := ⟨.hbm, 59, rfl⟩
abbrev main_call1_cst_0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_cst_1 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_v43 : Ref sig .tc := ⟨.hbm, 72, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x16_S100000x16_1_0_0_1_n_n_wf : DotDims.WF S100000x512 S512x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x40_S100000x40_1_0_0_1_n_n_wf : DotDims.WF S100000x16 S16x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.KernelAgg.lean ====
/-
  The sparse aggregation between the dense stages, in the kernel program's own operations: a source index is counted
  from the end when negative (`wrap`), the table's rows are gathered at the wrapped indices and kept where the index is
  a row of the table (`inRows`, else the quiet-NaN pattern), each gathered row is scaled by its edge's value and added
  into the row of its destination.
-/
import proofs.«407292_j18777597018266_2_alg».proof.KernelIdeal
import proofs.«407292_j18777597018266_2_alg».proof.Proof.Gen.KernelIdeal

set_option maxRecDepth 16384

noncomputable section

namespace Cert.KernelIdeal.Agg

open Cert.KernelIdeal Cert.KernelIdeal.Facts₀ Cert.KernelIdeal.Facts
open Idealize.ShloMosaic Idealize.SL.Sem

variable {F : FTy → Type} [FloatOps F]

/-- The first row of the edge list: each edge's source. -/
def srcOf (ei : IVec S2x3200000 32) : IVec S3200000 32 :=
  shapeCast S3200000 (extractStridedSlice S1x3200000 ![0, 0] ei slices_S2x3200000_S1x3200000_0_0) shapeCasts_S1x3200000_S3200000

/-- The second row of the edge list: each edge's destination. -/
def dstOf (ei : IVec S2x3200000 32) : IVec S3200000 32 :=
  shapeCast S3200000 (extractStridedSlice S1x3200000 ![1, 0] ei slices_S2x3200000_S1x3200000_1_0) shapeCasts_S1x3200000_S3200000

/-- A source index counted from the end when negative: `src + 100000` where `src < 0`, else `src`. -/
def wrap (src : IVec S3200000 32) : IVec S3200000 32 :=
  select (cmpi .slt src (broadcastInDim S3200000 ![] bcast_S_S3200000 (constantI S_ 32 0#32)))
    (addi src (broadcastInDim S3200000 ![] bcast_S_S3200000 (constantI S_ 32 100000#32))) src

/-- The wrapped indices as a column. -/
def col (src : IVec S3200000 32) : IVec S3200000x1 32 :=
  broadcastInDim S3200000x1 ![0] bcast_S3200000_S3200000x1_0 (wrap src)

/-- Per edge, whether the wrapped index is a row of the table: `0 ≤ idx` and `idx ≤ 99999`, folded by `and` over the
    column's one entry. -/
def inRows (src : IVec S3200000 32) : IVec S3200000 1 :=
  Host.reduce IntOp.andi
    (andi (cmpi .sge (col src) (broadcastInDim S3200000x1 ![] bcast_S_S3200000x1 (constantI S_ 32 0#32)))
      (cmpi .sle (col src) (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The gathered rows of a table of width 16, as the program computes them: the rows at the wrapped source indices where
    those are rows of the table, the quiet-NaN pattern elsewhere. -/
def take16 (h : FVec F S100000x16 .f32) (src : IVec S3200000 32) : FVec F S3200000x16 .f32 :=
  select (broadcastInDim S3200000x16 ![0] bcast_S3200000_S3200000x16_0 (inRows src))
    (Host.gather gather_S100000x16_S3200000x1_S3200000x16_1_0_n_n_0_1_116 h (col src))
    (broadcastInDim S3200000x16 ![] bcast_S_S3200000x16 (constant S_ .f32 0x7FC00000#32))

/-- The sparse product of width 16: each edge's row scaled by the edge's value and added into the row of its destination. -/
def spmm16 (t : FVec F S3200000x16 .f32) (dst : IVec S3200000 32) (ev : FVec F S3200000 .f32) : FVec F S100000x16 .f32 :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 dst)
    (mulf (broadcastInDim S3200000x16 ![0, 1] bcast_S3200000x1_S3200000x16_0_1
      (broadcastInDim S3200000x1 ![0] bcast_S3200000_S3200000x1_0 ev)) t)

/-- The gathered rows of a table of width 40, as the program computes them: the rows at the wrapped source indices where
    those are rows of the table, the quiet-NaN pattern elsewhere. -/
def take40 (h : FVec F S100000x40 .f32) (src : IVec S3200000 32) : FVec F S3200000x40 .f32 :=
  select (broadcastInDim S3200000x40 ![0] bcast_S3200000_S3200000x40_0 (inRows src))
    (Host.gather gather_S100000x40_S3200000x1_S3200000x40_1_0_n_n_0_1_140 h (col src))
    (broadcastInDim S3200000x40 ![] bcast_S_S3200000x40 (constant S_ .f32 0x7FC00000#32))

/-- The sparse product of width 40: each edge's row scaled by the edge's value and added into the row of its destination. -/
def spmm40 (t : FVec F S3200000x40 .f32) (dst : IVec S3200000 32) (ev : FVec F S3200000 .f32) : FVec F S100000x40 .f32 :=
  Host.scatterAdd scatter_S100000x40_S3200000x1_S3200000x40_1_0_0_1
    (broadcastInDim S100000x40 ![] bcast_S_S100000x40 (constant S_ .f32 0x00000000#32))
    (broadcastInDim S3200000x1 ![0] bcast_S3200000_S3200000x1_0 dst)
    (mulf (broadcastInDim S3200000x40 ![0, 1] bcast_S3200000x1_S3200000x40_0_1
      (broadcastInDim S3200000x1 ![0] bcast_S3200000_S3200000x1_0 ev)) t)

end Cert.KernelIdeal.Agg

end
-- ==== Proof.KernelStretch.lean ====
/-
  The host stretches between the pallas_calls compute the aggregation functions of the buffers they read, whatever the
  buffers hold: each stretch's result buffer, read back through the stretch's operations.
-/
import proofs.«407292_j18777597018266_2_alg».proof.Proof.Gen.KernelIdeal.Launch
import proofs.«407292_j18777597018266_2_alg».proof.Proof.KernelAgg
import Idealize.ShloMosaic.Lib.StableHlo.Run

set_option maxRecDepth 16384
set_option Elab.async false

noncomputable section

namespace Cert.KernelIdeal.Agg

open Cert.KernelIdeal Cert.KernelIdeal.Facts₀ Cert.KernelIdeal.Facts
open Cert.KernelIdeal.Gen (hostOps0 hostOps1 hostOps1_1 hostOps1_2 hostOps2 hostOps2_1 hostOps2_2)
open Idealize.ShloMosaic Idealize.ShloMosaic.TcCoe Idealize.SL.Sem Idealize.ShloMosaic.StableHlo

variable {F : FTy → Type} [FloatOps F]

-- the reductions, the gather and the scatter are compared by their arguments, never opened
attribute [local irreducible] Host.reduce Host.reduceAdd Host.gather Host.scatterAdd
-- nor are the elementwise and layout operations: two terms meet operation by operation
attribute [local irreducible] Idealize.ShloMosaic.select Idealize.ShloMosaic.mulf Idealize.ShloMosaic.broadcastInDim Idealize.ShloMosaic.cmpi
  Idealize.ShloMosaic.addi Idealize.ShloMosaic.andi Idealize.ShloMosaic.constant Idealize.ShloMosaic.constantI Idealize.ShloMosaic.shapeCast
  Idealize.ShloMosaic.extractStridedSlice

/-- The edge list's two rows, read off the argument by the program's first four host operations. -/
theorem src_after (X : Valuation τ sig (Elt F)) :
    StableHlo.after hostOps0 X (Proc.devRef .tc main_v1) = srcOf (X (Proc.devRef .tc main_arg1)) := by
  simp only [hostOps0]; after_results; rfl

theorem dst_after (X : Valuation τ sig (Elt F)) :
    StableHlo.after hostOps0 X (Proc.devRef .tc main_v3) = dstOf (X (Proc.devRef .tc main_arg1)) := by
  simp only [hostOps0]; after_results; rfl

/-! ## Those four operations write no argument -/

theorem keep0_arg0 (X : Valuation τ sig (Elt F)) :
    StableHlo.after hostOps0 X (Proc.devRef .tc main_arg0) = X (Proc.devRef .tc main_arg0) := by
  simp only [hostOps0]; after_results <;> rfl

theorem keep0_arg2 (X : Valuation τ sig (Elt F)) :
    StableHlo.after hostOps0 X (Proc.devRef .tc main_arg2) = X (Proc.devRef .tc main_arg2) := by
  simp only [hostOps0]; after_results <;> rfl

theorem keep0_arg3 (X : Valuation τ sig (Elt F)) :
    StableHlo.after hostOps0 X (Proc.devRef .tc main_arg3) = X (Proc.devRef .tc main_arg3) := by
  simp only [hostOps0]; after_results <;> rfl

theorem keep0_arg4 (X : Valuation τ sig (Elt F)) :
    StableHlo.after hostOps0 X (Proc.devRef .tc main_arg4) = X (Proc.devRef .tc main_arg4) := by
  simp only [hostOps0]; after_results <;> rfl

theorem keep0_arg5 (X : Valuation τ sig (Elt F)) :
    StableHlo.after hostOps0 X (Proc.devRef .tc main_arg5) = X (Proc.devRef .tc main_arg5) := by
  simp only [hostOps0]; after_results <;> rfl

theorem keep0_arg6 (X : Valuation τ sig (Elt F)) :
    StableHlo.after hostOps0 X (Proc.devRef .tc main_arg6) = X (Proc.devRef .tc main_arg6) := by
  simp only [hostOps0]; after_results <;> rfl

/-! ## The stretch before pallas_call 2: width 16 -/

section Stage1

/-- The wrapped source indices, as a column, after the first eighteen operations of the gather's function. -/
theorem col16_after (Z : Valuation τ sig (Elt F)) :
    StableHlo.after (hostOps1_1.take 18) Z (Proc.devRef .tc main_call0_v5) = col (Z (Proc.devRef .tc main_v1)) := by
  simp only [hostOps1_1, List.take_succ_cons, List.take_zero]; after_results_simp <;> rfl

/-- Whether each wrapped index is a row of the table, after the same eighteen operations. -/
theorem inRows16_after (Z : Valuation τ sig (Elt F)) :
    StableHlo.after (hostOps1_1.take 18) Z (Proc.devRef .tc main_call0_v12) = inRows (Z (Proc.devRef .tc main_v1)) := by
  simp only [hostOps1_1, List.take_succ_cons, List.take_zero]; after_results_simp <;> rfl

/-- They leave the table as it was. -/
theorem tbl16_after (Z : Valuation τ sig (Elt F)) :
    StableHlo.after (hostOps1_1.take 18) Z (Proc.devRef .tc main_v4) = Z (Proc.devRef .tc main_v4) := by
  simp only [hostOps1_1, List.take_succ_cons, List.take_zero]; after_results_simp <;> rfl

/-- The function's last five operations: the gather, kept where the index is a row, the quiet-NaN pattern elsewhere. -/
theorem sel16_after (Y : Valuation τ sig (Elt F)) :
    StableHlo.after (hostOps1_1.drop 18) Y (Proc.devRef .tc main_v6)
      = select (broadcastInDim S3200000x16 ![0] bcast_S3200000_S3200000x16_0 (Y (Proc.devRef .tc main_call0_v12) : IVec S3200000 1))
          (Host.gather gather_S100000x16_S3200000x1_S3200000x16_1_0_n_n_0_1_116 (Y (Proc.devRef .tc main_v4) : FVec F S100000x16 .f32)
            (Y (Proc.devRef .tc main_call0_v5) : IVec S3200000x1 32))
          (broadcastInDim S3200000x16 ![] bcast_S_S3200000x16 (constant S_ .f32 0x7FC00000#32)) := by
  simp only [hostOps1_1, List.drop_succ_cons, List.drop_zero]; after_results_simp <;> rfl

/-- The whole function: the gathered rows of the table at the source indices. -/
theorem take16_after (Z : Valuation τ sig (Elt F)) :
    StableHlo.after hostOps1_1 Z (Proc.devRef .tc main_v6) = take16 (Z (Proc.devRef .tc main_v4)) (Z (Proc.devRef .tc main_v1)) := by
  rw [show StableHlo.after hostOps1_1 Z = StableHlo.after (hostOps1_1.drop 18) (StableHlo.after (hostOps1_1.take 18) Z) from rfl,
    sel16_after, inRows16_after, col16_after, tbl16_after]
  rfl

/-- The function writes neither the destinations nor the edge values' column. -/
theorem take16_keep_dst (Z : Valuation τ sig (Elt F)) :
    StableHlo.after hostOps1_1 Z (Proc.devRef .tc main_v3) = Z (Proc.devRef .tc main_v3) := by
  simp only [hostOps1_1]; after_results_simp <;> rfl
theorem take16_keep_ev (Z : Valuation τ sig (Elt F)) :
    StableHlo.after hostOps1_1 Z (Proc.devRef .tc main_v5) = Z (Proc.devRef .tc main_v5) := by
  simp only [hostOps1_1]; after_results_simp <;> rfl

/-- The scaled rows added into their destinations. -/
theorem scat16_after (Y : Valuation τ sig (Elt F)) :
    StableHlo.after hostOps1_2 Y (Proc.devRef .tc main_v11)
      = Host.scatterAdd scatter_S100000x16_S3200000x1_S3200000x16_1_0_0_1
          (broadcastInDim S100000x16 ![] bcast_S_S100000x16 (constant S_ .f32 0x00000000#32))
          (broadcastInDim S3200000x1 ![0] bcast_S3200000_S3200000x1_0 (Y (Proc.devRef .tc main_v3) : IVec S3200000 32))
          (mulf (broadcastInDim S3200000x16 ![0, 1] bcast_S3200000x1_S3200000x16_0_1 (Y (Proc.devRef .tc main_v5) : FVec F S3200000x1 .f32))
            (Y (Proc.devRef .tc main_v6) : FVec F S3200000x16 .f32)) := by
  simp only [hostOps1_2]; after_results_simp <;> rfl

/-- The edge values as a column. -/
theorem ev16_after (X : Valuation τ sig (Elt F)) :
    StableHlo.after hostOps1 X (Proc.devRef .tc main_v5)
      = broadcastInDim S3200000x1 ![0] bcast_S3200000_S3200000x1_0 (X (Proc.devRef .tc main_arg2) : FVec F S3200000 .f32) := by
  simp only [hostOps1]; after_results_simp <;> rfl
theorem ev16_keep_tbl (X : Valuation τ sig (Elt F)) :
    StableHlo.after hostOps1 X (Proc.devRef .tc main_v4) = X (Proc.devRef .tc main_v4) := by
  simp only [hostOps1]; after_results_simp <;> rfl
theorem ev16_keep_src (X : Valuation τ sig (Elt F)) :
    StableHlo.after hostOps1 X (Proc.devRef .tc main_v1) = X (Proc.devRef .tc main_v1) := by
  simp only [hostOps1]; after_results_simp <;> rfl
theorem ev16_keep_dst (X : Valuation τ sig (Elt F)) :
    StableHlo.after hostOps1 X (Proc.devRef .tc main_v3) = X (Proc.devRef .tc main_v3) := by
  simp only [hostOps1]; after_results_simp <;> rfl

/-- Between pallas_call 1 and pallas_call 2: the next call's first operand is the sparse product of the gathered rows of
    the previous call's result. -/
theorem agg16_after (X : Valuation τ sig (Elt F)) :
    StableHlo.after hostOps1_2 (StableHlo.after hostOps1_1 (StableHlo.after hostOps1 X)) (Proc.devRef .tc main_v11)
      = spmm16 (take16 (X (Proc.devRef .tc main_v4)) (X (Proc.devRef .tc main_v1))) (X (Proc.devRef .tc main_v3))
          (X (Proc.devRef .tc main_arg2)) := by
  rw [scat16_after, take16_after, take16_keep_dst, take16_keep_ev, ev16_after, ev16_keep_tbl, ev16_keep_src, ev16_keep_dst]
  rfl

set_option maxHeartbeats 4000000 in
/-- The bias row of pallas_call 2: the 16 biases as one row. -/
theorem bias16_after (X : Valuation τ sig (Elt F)) :
    StableHlo.after hostOps1_2 (StableHlo.after hostOps1_1 (StableHlo.after hostOps1 X)) (Proc.devRef .tc main_v12)
      = shapeCast S1x16 (X (Proc.devRef .tc main_arg4)) shapeCasts_S16_S1x16 := by
  simp only [hostOps1, hostOps1_1, hostOps1_2]; after_results_simp <;> rfl

/-! ### What the stretch leaves alone -/

set_option maxHeartbeats 4000000 in
theorem keep1_v1 (X : Valuation τ sig (Elt F)) :
    StableHlo.after hostOps1_2 (StableHlo.after hostOps1_1 (StableHlo.after hostOps1 X)) (Proc.devRef .tc main_v1) = X (Proc.devRef .tc main_v1) := by
  simp only [hostOps1, hostOps1_1, hostOps1_2]; after_results_simp <;> rfl

set_option maxHeartbeats 4000000 in
theorem keep1_v3 (X : Valuation τ sig (Elt F)) :
    StableHlo.after hostOps1_2 (StableHlo.after hostOps1_1 (StableHlo.after hostOps1 X)) (Proc.devRef .tc main_v3) = X (Proc.devRef .tc main_v3) := by
  simp only [hostOps1, hostOps1_1, hostOps1_2]; after_results_simp <;> rfl

set_option maxHeartbeats 4000000 in
theorem keep1_arg2 (X : Valuation τ sig (Elt F)) :
    StableHlo.after hostOps1_2 (StableHlo.after hostOps1_1 (StableHlo.after hostOps1 X)) (Proc.devRef .tc main_arg2) = X (Proc.devRef .tc main_arg2) := by
  simp only [hostOps1, hostOps1_1, hostOps1_2]; after_results_simp <;> rfl

set_option maxHeartbeats 4000000 in
theorem keep1_arg5 (X : Valuation τ sig (Elt F)) :
    StableHlo.after hostOps1_2 (StableHlo.after hostOps1_1 (StableHlo.after hostOps1 X)) (Proc.devRef .tc main_arg5) = X (Proc.devRef .tc main_arg5) := by
  simp only [hostOps1, hostOps1_1, hostOps1_2]; after_results_simp <;> rfl

set_option maxHeartbeats 4000000 in
theorem keep1_arg6 (X : Valuation τ sig (Elt F)) :
    StableHlo.after hostOps1_2 (StableHlo.after hostOps1_1 (StableHlo.after hostOps1 X)) (Proc.devRef .tc main_arg6) = X (Proc.devRef .tc main_arg6) := by
  simp only [hostOps1, hostOps1_1, hostOps1_2]; after_results_simp <;> rfl

end Stage1

/-! ## The stretch before pallas_call 3: width 40 -/

section Stage2

/-- The wrapped source indices, as a column, after the first eighteen operations of the gather's function. -/
theorem col40_after (Z : Valuation τ sig (Elt F)) :
    StableHlo.after (hostOps2_1.take 18) Z (Proc.devRef .tc main_call1_v5) = col (Z (Proc.devRef .tc main_v1)) := by
  simp only [hostOps2_1, List.take_succ_cons, List.take_zero]; after_results_simp <;> rfl

/-- Whether each wrapped index is a row of the table, after the same eighteen operations. -/
theorem inRows40_after (Z : Valuation τ sig (Elt F)) :
    StableHlo.after (hostOps2_1.take 18) Z (Proc.devRef .tc main_call1_v12) = inRows (Z (Proc.devRef .tc main_v1)) := by
  simp only [hostOps2_1, List.take_succ_cons, List.take_zero]; after_results_simp <;> rfl

/-- They leave the table as it was. -/
theorem tbl40_after (Z : Valuation τ sig (Elt F)) :
    StableHlo.after (hostOps2_1.take 18) Z (Proc.devRef .tc main_v13) = Z (Proc.devRef .tc main_v13) := by
  simp only [hostOps2_1, List.take_succ_cons, List.take_zero]; after_results_simp <;> rfl

/-- The function's last five operations: the gather, kept where the index is a row, the quiet-NaN pattern elsewhere. -/
theorem sel40_after (Y : Valuation τ sig (Elt F)) :
    StableHlo.after (hostOps2_1.drop 18) Y (Proc.devRef .tc main_v15)
      = select (broadcastInDim S3200000x40 ![0] bcast_S3200000_S3200000x40_0 (Y (Proc.devRef .tc main_call1_v12) : IVec S3200000 1))
          (Host.gather gather_S100000x40_S3200000x1_S3200000x40_1_0_n_n_0_1_140 (Y (Proc.devRef .tc main_v13) : FVec F S100000x40 .f32)
            (Y (Proc.devRef .tc main_call1_v5) : IVec S3200000x1 32))
          (broadcastInDim S3200000x40 ![] bcast_S_S3200000x40 (constant S_ .f32 0x7FC00000#32)) := by
  simp only [hostOps2_1, List.drop_succ_cons, List.drop_zero]; after_results_simp <;> rfl

/-- The whole function: the gathered rows of the table at the source indices. -/
theorem take40_after (Z : Valuation τ sig (Elt F)) :
    StableHlo.after hostOps2_1 Z (Proc.devRef .tc main_v15) = take40 (Z (Proc.devRef .tc main_v13)) (Z (Proc.devRef .tc main_v1)) := by
  rw [show StableHlo.after hostOps2_1 Z = StableHlo.after (hostOps2_1.drop 18) (StableHlo.after (hostOps2_1.take 18) Z) from rfl,
    sel40_after, inRows40_after, col40_after, tbl40_after]
  rfl

/-- The function writes neither the destinations nor the edge values' column. -/
theorem take40_keep_dst (Z : Valuation τ sig (Elt F)) :
    StableHlo.after hostOps2_1 Z (Proc.devRef .tc main_v3) = Z (Proc.devRef .tc main_v3) := by
  simp only [hostOps2_1]; after_results_simp <;> rfl
theorem take40_keep_ev (Z : Valuation τ sig (Elt F)) :
    StableHlo.after hostOps2_1 Z (Proc.devRef .tc main_v14) = Z (Proc.devRef .tc main_v14) := by
  simp only [hostOps2_1]; after_results_simp <;> rfl

/-- The scaled rows added into their destinations. -/
theorem scat40_after (Y : Valuation τ sig (Elt F)) :
    StableHlo.after hostOps2_2 Y (Proc.devRef .tc main_v20)
      = Host.scatterAdd scatter_S100000x40_S3200000x1_S3200000x40_1_0_0_1
          (broadcastInDim S100000x40 ![] bcast_S_S100000x40 (constant S_ .f32 0x00000000#32))
          (broadcastInDim S3200000x1 ![0] bcast_S3200000_S3200000x1_0 (Y (Proc.devRef .tc main_v3) : IVec S3200000 32))
          (mulf (broadcastInDim S3200000x40 ![0, 1] bcast_S3200000x1_S3200000x40_0_1 (Y (Proc.devRef .tc main_v14) : FVec F S3200000x1 .f32))
            (Y (Proc.devRef .tc main_v15) : FVec F S3200000x40 .f32)) := by
  simp only [hostOps2_2]; after_results_simp <;> rfl

/-- The edge values as a column. -/
theorem ev40_after (X : Valuation τ sig (Elt F)) :
    StableHlo.after hostOps2 X (Proc.devRef .tc main_v14)
      = broadcastInDim S3200000x1 ![0] bcast_S3200000_S3200000x1_0 (X (Proc.devRef .tc main_arg2) : FVec F S3200000 .f32) := by
  simp only [hostOps2]; after_results_simp <;> rfl
theorem ev40_keep_tbl (X : Valuation τ sig (Elt F)) :
    StableHlo.after hostOps2 X (Proc.devRef .tc main_v13) = X (Proc.devRef .tc main_v13) := by
  simp only [hostOps2]; after_results_simp <;> rfl
theorem ev40_keep_src (X : Valuation τ sig (Elt F)) :
    StableHlo.after hostOps2 X (Proc.devRef .tc main_v1) = X (Proc.devRef .tc main_v1) := by
  simp only [hostOps2]; after_results_simp <;> rfl
theorem ev40_keep_dst (X : Valuation τ sig (Elt F)) :
    StableHlo.after hostOps2 X (Proc.devRef .tc main_v3) = X (Proc.devRef .tc main_v3) := by
  simp only [hostOps2]; after_results_simp <;> rfl

/-- Between pallas_call 2 and pallas_call 3: the next call's first operand is the sparse product of the gathered rows of
    the previous call's result. -/
theorem agg40_after (X : Valuation τ sig (Elt F)) :
    StableHlo.after hostOps2_2 (StableHlo.after hostOps2_1 (StableHlo.after hostOps2 X)) (Proc.devRef .tc main_v20)
      = spmm40 (take40 (X (Proc.devRef .tc main_v13)) (X (Proc.devRef .tc main_v1))) (X (Proc.devRef .tc main_v3))
          (X (Proc.devRef .tc main_arg2)) := by
  rw [scat40_after, take40_after, take40_keep_dst, take40_keep_ev, ev40_after, ev40_keep_tbl, ev40_keep_src, ev40_keep_dst]
  rfl

set_option maxHeartbeats 4000000 in
/-- The bias row of pallas_call 3: the 40 biases as one row. -/
theorem bias40_after (X : Valuation τ sig (Elt F)) :
    StableHlo.after hostOps2_2 (StableHlo.after hostOps2_1 (StableHlo.after hostOps2 X)) (Proc.devRef .tc main_v21)
      = shapeCast S1x40 (X (Proc.devRef .tc main_arg6)) shapeCasts_S40_S1x40 := by
  simp only [hostOps2, hostOps2_1, hostOps2_2]; after_results_simp <;> rfl

end Stage2

end Cert.KernelIdeal.Agg

end
-- ==== Proof.Spec.lean ====
/-
  What the three dense stages of the two-layer graph convolution compute, index by index, on the extended reals.
  Between them both programs apply the same sparse aggregation (gather the source rows, scale by the edge value,
  add into the destination rows); that part is carried as it is printed and is not restated here.

  * `proj1 x w`    : row `r`, column `j` of `x · w` is `∑ k, x[r,k] · w[k,j]` (512 terms).
  * `proj2 s b w`  : row `r`, column `j` of `relu(s + b) · w` is `∑ k, max (s[r,k] + b[0,k]) 0 · w[k,j]` (16 terms).
  * `lsm s b`      : with `z k = s[r,k] + b[0,k]` and `M` the maximum of `z` over the 40 classes (folded from `-∞`),
                      entry `(r, j)` is `(z j - M) - log (∑ k, exp (z k - M))`: the row's log-softmax.
-/
import Idealize.ShloMosaic.PureOps.Ideal
import Idealize.ShloMosaic.Lib.ValueIdx

noncomputable section

open scoped BigOperators

namespace Cert.Spec

open Idealize.ShloMosaic Idealize.ShloMosaic.ValueIdx

/-- A two-axis index's row, as a number below the first extent. -/
abbrev row {n0 n1 : Nat} (i : (⟨2, ![n0, n1]⟩ : Shape).Idx) : Fin n0 := ⟨(i 0).val, idx2_lt0 i⟩
/-- A two-axis index's column, as a number below the second extent. -/
abbrev col {n0 n1 : Nat} (i : (⟨2, ![n0, n1]⟩ : Shape).Idx) : Fin n1 := ⟨(i 1).val, idx2_lt1 i⟩

/-- The pattern of `-∞`, read at the extended reals (never evaluated: both programs fold their maximum from it). -/
abbrev negInf : EReal := FloatOps.ofBits (F := Ideal) .f32 0xFF800000#32

/-- The first projection `x · w`: a row of 512 features against the 512 × 16 weights. -/
def proj1 (x : (⟨2, ![100000, 512]⟩ : Shape).Idx → EReal) (w : (⟨2, ![512, 16]⟩ : Shape).Idx → EReal) :
    (⟨2, ![100000, 16]⟩ : Shape).Idx → EReal :=
  fun i => ∑ k : Fin 512, x (ix2 (row i) k) * w (ix2 k (col i))

/-- The second projection `relu (s + b) · w`: the bias row added, negatives cut to zero, then 16 × 40 weights. -/
def proj2 (s : (⟨2, ![100000, 16]⟩ : Shape).Idx → EReal) (b : (⟨2, ![1, 16]⟩ : Shape).Idx → EReal)
    (w : (⟨2, ![16, 40]⟩ : Shape).Idx → EReal) : (⟨2, ![100000, 40]⟩ : Shape).Idx → EReal :=
  fun i => ∑ k : Fin 16, max (s (ix2 (row i) k) + b (ix2 (0 : Fin 1) k)) 0 * w (ix2 k (col i))

/-- A row's logits: the aggregated scores plus the bias row. -/
def logit (s : (⟨2, ![100000, 40]⟩ : Shape).Idx → EReal) (b : (⟨2, ![1, 40]⟩ : Shape).Idx → EReal)
    (r : Fin 100000) (k : Fin 40) : EReal :=
  s (ix2 r k) + b (ix2 (0 : Fin 1) k)

/-- A row's largest logit, folded from `-∞` over the 40 classes. -/
def rowMax (s : (⟨2, ![100000, 40]⟩ : Shape).Idx → EReal) (b : (⟨2, ![1, 40]⟩ : Shape).Idx → EReal)
    (r : Fin 100000) : EReal :=
  (Finset.univ : Finset (Fin 40)).fold max negInf (logit s b r)

/-- The row-wise log-softmax of the logits: shifted by the row's maximum, minus the log of the shifted exponentials' sum. -/
def lsm (s : (⟨2, ![100000, 40]⟩ : Shape).Idx → EReal) (b : (⟨2, ![1, 40]⟩ : Shape).Idx → EReal) :
    (⟨2, ![100000, 40]⟩ : Shape).Idx → EReal :=
  fun i => (logit s b (row i) (col i) - rowMax s b (row i))
    - Ideal.log (∑ k : Fin 40, Ideal.exp (logit s b (row i) k - rowMax s b (row i)))

end Cert.Spec

end
-- ==== Proof.Region0.lean ====
import proofs.«407292_j18777597018266_2_alg».proof.Proof.Gen.KernelIdeal.Frame
import proofs.«407292_j18777597018266_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block product at an index

The body rounds both operands to bf16 (the identity on the extended reals) and multiplies them into a zero accumulator:
entry `(p, q)` of the block is the sum over the 512 contracted positions of the products of the entries. -/

/-- The left operand's index keeps the output's row on axis 0; -/
theorem lhs_axis0 (j : S5000x16.Idx) (k : dot_S5000x512_S512x16_S5000x16_1_0_0_1_n_n.contr.Idx) :
    (dot_S5000x512_S512x16_S5000x16_1_0_0_1_n_n.lhsIdx j k 0).val = (j 0).val := by
  simp [DotDims.lhsIdx, dot_S5000x512_S512x16_S5000x16_1_0_0_1_n_n]
  rfl

/-- and reads the contracted position on axis 1. -/
theorem lhs_axis1 (j : S5000x16.Idx) (k : dot_S5000x512_S512x16_S5000x16_1_0_0_1_n_n.contr.Idx) :
    (dot_S5000x512_S512x16_S5000x16_1_0_0_1_n_n.lhsIdx j k 1).val = (k ⟨0, by decide⟩).val :=
  DotDims.lhsIdx_val_of_single _ rfl j k

/-- The right operand's index reads the contracted position on axis 0; -/
theorem rhs_axis0 (j : S5000x16.Idx) (k : dot_S5000x512_S512x16_S5000x16_1_0_0_1_n_n.contr.Idx) :
    (dot_S5000x512_S512x16_S5000x16_1_0_0_1_n_n.rhsIdx j k 0).val = (k ⟨0, by decide⟩).val :=
  DotDims.rhsIdx_val_of_single _ rfl j k

/-- and keeps the output's column on axis 1. -/
theorem rhs_axis1 (j : S5000x16.Idx) (k : dot_S5000x512_S512x16_S5000x16_1_0_0_1_n_n.contr.Idx) :
    (dot_S5000x512_S512x16_S5000x16_1_0_0_1_n_n.rhsIdx j k 1).val = (j 1).val := by
  simp [DotDims.rhsIdx, dot_S5000x512_S512x16_S5000x16_1_0_0_1_n_n]
  rfl

/-- Entry `(p, q)` of the block product: `∑ k, x0[p,k] · x1[k,q]` over the 512 contracted positions. -/
theorem pay_apply (x0 : Vec Ideal S5000x512 .f32) (x1 : Vec Ideal S512x16 .f32) (p : Fin 5000) (q : Fin 16) :
    k0_pay1 (F := Ideal) x0 x1 (ix2 p q) = ∑ k : Fin 512, x0 (ix2 p k) * x1 (ix2 k q) := by
  unfold k0_pay1
  refine (Ideal.matmul_constant_zero_apply dot_S5000x512_S512x16_S5000x16_1_0_0_1_n_n none _ _ (ix2 p q)).trans ?_
  rw [← Equiv.sum_comp (contrEquiv1 dot_S5000x512_S512x16_S5000x16_1_0_0_1_n_n 512 rfl rfl).symm]
  refine Finset.sum_congr rfl fun k _ => ?_
  have hk := contrEquiv1_symm_val dot_S5000x512_S512x16_S5000x16_1_0_0_1_n_n 512 rfl rfl k
  have hl : dot_S5000x512_S512x16_S5000x16_1_0_0_1_n_n.lhsIdx (ix2 p q)
      ((contrEquiv1 dot_S5000x512_S512x16_S5000x16_1_0_0_1_n_n 512 rfl rfl).symm k) = ix2 p k := by
    funext a; apply Fin.ext
    match a with
    | ⟨0, _⟩ => exact lhs_axis0 _ _
    | ⟨1, _⟩ => exact (lhs_axis1 _ _).trans hk
  have hr : dot_S5000x512_S512x16_S5000x16_1_0_0_1_n_n.rhsIdx (ix2 p q)
      ((contrEquiv1 dot_S5000x512_S512x16_S5000x16_1_0_0_1_n_n 512 rfl rfl).symm k) = ix2 k q := by
    funext a; apply Fin.ext
    match a with
    | ⟨0, _⟩ => exact (rhs_axis0 _ _).trans hk
    | ⟨1, _⟩ => exact rhs_axis1 _ _
  rw [hl, hr]
  rfl

/-- The block product of blocks that are rows of `X` and all of `W`, at a block index `y` whose row is row `i` of the
    array and whose column is `i`'s, is entry `i` of `X · W`. -/
theorem pay_eq_proj1 (x0 : Vec Ideal S5000x512 .f32) (x1 : Vec Ideal S512x16 .f32)
    (X : S100000x512.Idx → EReal) (W : S512x16.Idx → EReal) (y : S5000x16.Idx) (i : S100000x16.Idx)
    (h0 : ∀ k : Fin 512, x0 (ix2 (Cert.Spec.row y) k) = X (ix2 (Cert.Spec.row i) k))
    (h1 : ∀ k : Fin 512, x1 (ix2 k (Cert.Spec.col y)) = W (ix2 k (Cert.Spec.col i))) :
    k0_pay1 (F := Ideal) x0 x1 y = Cert.Spec.proj1 X W i := by
  have hy : y = ix2 (Cert.Spec.row y) (Cert.Spec.col y) := eq_ix2 y
  rw [hy, pay_apply]
  unfold Cert.Spec.proj1
  exact Finset.sum_congr rfl fun k _ => by rw [h0 k, h1 k]

/-! ## From blocks to the array -/

theorem hz : (![0, 0] : Fin 2 → Nat) = fun _ => 0 :=
  funext fun a => by match a with | ⟨0, _⟩ => rfl | ⟨1, _⟩ => rfl

/-- The printed index maps over the grid: at point `t` the feature window and the output window are both at row block
    `t`, column block 0, and the weights are whole. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of `x · w`. -/
theorem flushed_eq (c : Dev nD) (t : Fin cfg0.N) :
    (dat0 (F := Ideal) V c).flushed 2 t
      = ((cfg0.win 2).blk t).view.read (Elt Ideal) (Cert.Spec.proj1 (V c main_arg0) (V c main_arg3)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x16) hz]
  obtain ⟨e0, e1, e2, e3, e4, e5⟩ := idx_facts t
  funext j
  refine pay_eq_proj1 (iblk0 V c 0 t) (iblk0 V c 1 t) (V c main_arg0) (V c main_arg3)
    (win0_2.xinj (grid0.coords t) j) (((cfg0.win 2).blk t).view.emb j) (fun k => ?_) (fun k => ?_)
  · show V c main_arg0 (((cfg0.win 0).blk t).view.emb (ix2 (Cert.Spec.row (win0_2.xinj (grid0.coords t) j)) k))
      = V c main_arg0 (ix2 (Cert.Spec.row (((cfg0.win 2).blk t).view.emb j)) k)
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 512 + 1 * k.val = k.val
      omega
  · show V c main_arg3 (((cfg0.win 1).blk t).view.emb (ix2 k (Cert.Spec.col (win0_2.xinj (grid0.coords t) j))))
      = V c main_arg3 (ix2 k (Cert.Spec.col (((cfg0.win 2).blk t).view.emb j)))
    refine congrArg (V c main_arg3) (funext fun a => Fin.ext ?_)
    match a with
    | ⟨0, _⟩ =>
      show win0_1.index t (0 : Fin 2) * 512 + 1 * k.val = k.val
      omega
    | ⟨1, _⟩ =>
      show win0_1.index t (1 : Fin 2) * 16 + 1 * (j 1).val = win0_2.index t (1 : Fin 2) * 16 + 1 * (j 1).val
      omega

/-- An index of the array is in point `t`'s block iff each coordinate is in the block's range on its axis. -/
theorem mem_blk (t : Fin cfg0.N) (i : S100000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v4).slice (win0_2.rect t)).set ↔ _
  rw [View.set_slice_whole, Rect.mem_set_unit]
  exact Iff.rfl

/-- Row `r` of the array lies in the block of point `r / 5000`: the twenty row blocks cover the array. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 16 ≤ (i 1).val ∧ (i 1).val < win0_2.index t (1 : Fin 2) * 16 + 16
    omega

/-- After the first pallas_call's twenty grid points, its output array is `x · w` of the arrays it was entered with. -/
theorem final (c : Dev nD) :
    (dat0 (F := Ideal) V c).arrAt 2 cfg0.N = Cert.Spec.proj1 (V c main_arg0) (V c main_arg3) :=
  (dat0 (F := Ideal) V c).arrAt_eq_of_cover 2 (Cert.Spec.proj1 (V c main_arg0) (V c main_arg3))
    (fun t _ => flushed_eq V c t) cover

end Cert.KernelIdeal.Region0

end
-- ==== Proof.Region1.lean ====
import proofs.«407292_j18777597018266_2_alg».proof.Proof.Gen.KernelIdeal.Frame
import proofs.«407292_j18777597018266_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The product's operand indices, axis by axis -/

/-- The left operand is read at the output's row … -/
theorem lhs_axis0 (j : S5000x40.Idx) (k : dot_S5000x16_S16x40_S5000x40_1_0_0_1_n_n.contr.Idx) :
    (dot_S5000x16_S16x40_S5000x40_1_0_0_1_n_n.lhsIdx j k 0 : ℕ) = j 0 := by
  simp [DotDims.lhsIdx, dot_S5000x16_S16x40_S5000x40_1_0_0_1_n_n]; rfl
/-- … and the contracted coordinate; -/
theorem lhs_axis1 (j : S5000x40.Idx) (k : dot_S5000x16_S16x40_S5000x40_1_0_0_1_n_n.contr.Idx) :
    (dot_S5000x16_S16x40_S5000x40_1_0_0_1_n_n.lhsIdx j k 1 : ℕ) = k ⟨0, by decide⟩ := by
  simp [DotDims.lhsIdx, dot_S5000x16_S16x40_S5000x40_1_0_0_1_n_n]; rfl
/-- the right operand at the contracted coordinate … -/
theorem rhs_axis0 (j : S5000x40.Idx) (k : dot_S5000x16_S16x40_S5000x40_1_0_0_1_n_n.contr.Idx) :
    (dot_S5000x16_S16x40_S5000x40_1_0_0_1_n_n.rhsIdx j k 0 : ℕ) = k ⟨0, by decide⟩ := by
  simp [DotDims.rhsIdx, dot_S5000x16_S16x40_S5000x40_1_0_0_1_n_n]; rfl
/-- … and the output's column. -/
theorem rhs_axis1 (j : S5000x40.Idx) (k : dot_S5000x16_S16x40_S5000x40_1_0_0_1_n_n.contr.Idx) :
    (dot_S5000x16_S16x40_S5000x40_1_0_0_1_n_n.rhsIdx j k 1 : ℕ) = j 1 := by
  simp [DotDims.rhsIdx, dot_S5000x16_S16x40_S5000x40_1_0_0_1_n_n]; rfl

/-! ## The body's payload at an index -/

/-- Entry `(p, q)` of what the body stores: the bias row added to row `p` of the scores, negatives cut to zero,
    then the sixteen products with column `q` of the weights, summed. -/
theorem pay_apply (x0 : FVec Ideal S5000x16 .f32) (x1 : FVec Ideal S1x16 .f32) (x2 : FVec Ideal S16x40 .f32)
    (p : Fin 5000) (q : Fin 40) :
    k1_pay1 (F := Ideal) x0 x1 x2 (ix2 p q)
      = ∑ k : Fin 16, max (x0 (ix2 p k) + x1 (ix2 (0 : Fin 1) k)) 0 * x2 (ix2 k q) := by
  unfold k1_pay1
  show FloatOps.matmul dot_S5000x16_S16x40_S5000x40_1_0_0_1_n_n none _ _ (constant S5000x40 .f32 0x00000000#32) (ix2 p q) = _
  rw [Ideal.matmul_constant_zero_apply,
    ← Equiv.sum_comp (contrEquiv1 dot_S5000x16_S16x40_S5000x40_1_0_0_1_n_n 16 rfl rfl).symm]
  refine Finset.sum_congr rfl fun k _ => ?_
  have ck := contrEquiv1_symm_val dot_S5000x16_S16x40_S5000x40_1_0_0_1_n_n 16 rfl rfl k
  have hl : dot_S5000x16_S16x40_S5000x40_1_0_0_1_n_n.lhsIdx (ix2 p q)
      ((contrEquiv1 dot_S5000x16_S16x40_S5000x40_1_0_0_1_n_n 16 rfl rfl).symm k) = ix2 p k := by
    funext a; apply Fin.ext
    match a with
    | ⟨0, _⟩ => exact lhs_axis0 _ _
    | ⟨1, _⟩ => exact (lhs_axis1 _ _).trans ck
  have hr : dot_S5000x16_S16x40_S5000x40_1_0_0_1_n_n.rhsIdx (ix2 p q)
      ((contrEquiv1 dot_S5000x16_S16x40_S5000x40_1_0_0_1_n_n 16 rfl rfl).symm k) = ix2 k q := by
    funext a; apply Fin.ext
    match a with
    | ⟨0, _⟩ => exact (rhs_axis0 _ _).trans ck
    | ⟨1, _⟩ => exact rhs_axis1 _ _
  rw [hl, hr, shapeCast_self, shapeCast_self]
  show max (x0 (ix2 p k) + broadcastTo S5000x16 x1 broadcasts_S1x16_S5000x16 (ix2 p k)) (Ideal.ofBits .f32 0x00000000#32)
      * x2 (ix2 k q) = _
  rw [broadcastTo_1b_ab_apply, Ideal.ofBits_zero_f32]

/-! ## From blocks to the array -/

theorem hz : (![0, 0] : Fin 2 → Nat) = fun _ => 0 := funext fun a => by fin_cases a <;> rfl

/-- The printed index maps, decided over the twenty points: the scores' and the output's blocks move down the rows
    with the point, the bias row and the weights stay at block zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `(p, k)` of the scores' block at point `t` is the array's entry `(5000 t + p, k)`. -/
theorem scores_blk_apply (c : Dev nD) (t : Fin cfg1.N) (p : Fin 5000) (k : Fin 16) (r : Fin 100000)
    (hr : r.val = 5000 * t.val + p.val) :
    (iblk1 V c 0 t : Vec Ideal S5000x16 .f32) (ix2 p k) = (V c main_v11 : S100000x16.Idx → EReal) (ix2 r k) := by
  obtain ⟨e0, e1, -⟩ := idx_facts t
  unfold iblk1
  rw [View.read_apply]
  show V c main_v11 _ = V c main_v11 _
  congr 1
  funext a; apply Fin.ext
  match a with
  | ⟨0, _⟩ => show win1_0.index t 0 * 5000 + 1 * p.val = r.val; rw [e0, hr]; omega
  | ⟨1, _⟩ => show win1_0.index t 1 * 16 + 1 * k.val = k.val; rw [e1]; omega

/-- The bias row's block at every point is the whole row. -/
theorem bias_blk_apply (c : Dev nD) (t : Fin cfg1.N) (z : Fin 1) (k : Fin 16) :
    (iblk1 V c 1 t : Vec Ideal S1x16 .f32) (ix2 z k) = (V c main_v12 : S1x16.Idx → EReal) (ix2 z k) := by
  obtain ⟨-, -, e0, e1, -⟩ := idx_facts t
  unfold iblk1
  rw [View.read_apply]
  show V c main_v12 _ = V c main_v12 _
  congr 1
  funext a; apply Fin.ext
  match a with
  | ⟨0, _⟩ => show win1_1.index t 0 * 1 + 1 * z.val = z.val; rw [e0]; omega
  | ⟨1, _⟩ => show win1_1.index t 1 * 16 + 1 * k.val = k.val; rw [e1]; omega

/-- The weights' block at every point is the whole matrix. -/
theorem weights_blk_apply (c : Dev nD) (t : Fin cfg1.N) (k : Fin 16) (q : Fin 40) :
    (iblk1 V c 2 t : Vec Ideal S16x40 .f32) (ix2 k q) = (V c main_arg5 : S16x40.Idx → EReal) (ix2 k q) := by
  obtain ⟨-, -, -, -, e0, e1, -⟩ := idx_facts t
  unfold iblk1
  rw [View.read_apply]
  show V c main_arg5 _ = V c main_arg5 _
  congr 1
  funext a; apply Fin.ext
  match a with
  | ⟨0, _⟩ => show win1_2.index t 0 * 16 + 1 * k.val = k.val; rw [e0]; omega
  | ⟨1, _⟩ => show win1_2.index t 1 * 40 + 1 * q.val = q.val; rw [e1]; omega

/-- A block of the body's result against the specification: when the scores' block holds the array's rows from
    `5000 n` on, and the bias row's and the weights' blocks hold those arrays whole, entry `y` of what the body stores
    is the specification's entry at row `5000 n + y 0`, column `y 1`. -/
theorem pay_eq_proj2 (s : S100000x16.Idx → EReal) (b : S1x16.Idx → EReal) (w : S16x40.Idx → EReal)
    (x0 : FVec Ideal S5000x16 .f32) (x1 : FVec Ideal S1x16 .f32) (x2 : FVec Ideal S16x40 .f32) (n : ℕ)
    (hx0 : ∀ (p : Fin 5000) (k : Fin 16) (r : Fin 100000), r.val = 5000 * n + p.val → x0 (ix2 p k) = s (ix2 r k))
    (hx1 : ∀ (z : Fin 1) (k : Fin 16), x1 (ix2 z k) = b (ix2 z k))
    (hx2 : ∀ (k : Fin 16) (q : Fin 40), x2 (ix2 k q) = w (ix2 k q))
    (y : S5000x40.Idx) (i : S100000x40.Idx) (hi0 : (i 0).val = 5000 * n + (y 0).val) (hi1 : (i 1).val = (y 1).val) :
    k1_pay1 (F := Ideal) x0 x1 x2 y = Cert.Spec.proj2 s b w i := by
  obtain ⟨p, q, rfl⟩ : ∃ (p : Fin 5000) (q : Fin 40), y = ix2 p q := ⟨y 0, y 1, eq_ix2 y⟩
  rw [pay_apply]
  unfold Cert.Spec.proj2
  refine Finset.sum_congr rfl fun k _ => ?_
  have hq : Cert.Spec.col i = q := Fin.ext hi1
  rw [hx0 p k (Cert.Spec.row i) hi0, hx1, hx2, hq]

/-- What point `t` writes back is block `t` of the specification of the arrays the region was entered with. -/
theorem flushed_eq (c : Dev nD) (t : Fin cfg1.N) :
    (dat1 (F := Ideal) V c).flushed 3 t
      = ((cfg1.win 3).blk t).view.read (Elt Ideal) (Cert.Spec.proj2 (V c main_v11) (V c main_v12) (V c main_arg5)) := by
  show (cfg1.win 3).cut (grid1.coords t) ((dat1 V c).after 3 t) = _
  rw [after1_3]
  unfold out1_3
  rw [View.canon_unit_zero hz]
  simp only [View.ld_unit_zero (S := S5000x16) hz, View.ld_unit_zero (S := S1x16) hz, View.ld_unit_zero (S := S16x40) hz]
  obtain ⟨-, -, -, -, -, -, e0, e1⟩ := idx_facts t
  funext j
  show k1_pay1 (F := Ideal) (iblk1 V c 0 t) (iblk1 V c 1 t) (iblk1 V c 2 t) ((cfg1.win 3).xinj (grid1.coords t) j)
      = Cert.Spec.proj2 (V c main_v11) (V c main_v12) (V c main_arg5) (((cfg1.win 3).blk t).view.emb j)
  refine pay_eq_proj2 (V c main_v11) (V c main_v12) (V c main_arg5) (iblk1 V c 0 t) (iblk1 V c 1 t) (iblk1 V c 2 t) t.val
    (fun p k r hr => scores_blk_apply V c t p k r hr) (fun z k => bias_blk_apply V c t z k)
    (fun k q => weights_blk_apply V c t k q)
    ((cfg1.win 3).xinj (grid1.coords t) j) (((cfg1.win 3).blk t).view.emb j) ?_ ?_
  · show win1_3.index t 0 * 5000 + 1 * (j 0).val = 5000 * t.val + (j 0).val
    rw [e0]; omega
  · show win1_3.index t 1 * 40 + 1 * (j 1).val = (j 1).val
    rw [e1]; omega

/-- An index of the output array lies in point `t`'s block iff each coordinate lies in the block's range on its axis. -/
theorem mem_blk (t : Fin cfg1.N) (i : S100000x40.Idx) :
    i ∈ ((cfg1.win 3).blk t).view.set ↔ ∀ a : Fin 2, win1_3.index t a * S5000x40.size a ≤ (i a).val
      ∧ (i a).val < win1_3.index t a * S5000x40.size a + S5000x40.size a := by
  show i ∈ ((View.whole main_v13).slice (win1_3.rect t)).set ↔ _
  rw [View.set_slice_whole, Rect.mem_set_unit]
  exact Iff.rfl

/-- Every index of the output array is written back: row `r` lies in the block of point `r / 5000`. -/
theorem cover (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  have hN : grid1.N = 20 := N_1
  obtain ⟨t, ht⟩ : ∃ t : Fin cfg1.N, t.val = (i 0).val / 5000 :=
    ⟨⟨(i 0).val / 5000, by show (i 0).val / 5000 < grid1.N; rw [hN]; omega⟩, rfl⟩
  obtain ⟨-, -, -, -, -, -, e0, e1⟩ := idx_facts t
  refine ⟨t, flush1_3 t, ?_⟩
  rw [mem_blk]
  intro a
  match a with
  | ⟨0, _⟩ =>
    show win1_3.index t 0 * 5000 ≤ (i 0).val ∧ (i 0).val < win1_3.index t 0 * 5000 + 5000
    rw [e0, ht]; omega
  | ⟨1, _⟩ =>
    show win1_3.index t 1 * 40 ≤ (i 1).val ∧ (i 1).val < win1_3.index t 1 * 40 + 40
    rw [e1]; omega

/-- After the second pallas_call's twenty grid points, its output array is `relu (s + b) · w` of the arrays it was entered with. -/
theorem final (c : Dev nD) :
    (dat1 (F := Ideal) V c).arrAt 3 cfg1.N = Cert.Spec.proj2 (V c main_v11) (V c main_v12) (V c main_arg5) :=
  (dat1 (F := Ideal) V c).arrAt_eq_of_cover 3 (Cert.Spec.proj2 (V c main_v11) (V c main_v12) (V c main_arg5))
    (fun t _ => flushed_eq V c t) cover

end Cert.KernelIdeal.Region1

end
-- ==== Proof.Region2.lean ====
import proofs.«407292_j18777597018266_2_alg».proof.Proof.Gen.KernelIdeal.Frame
import proofs.«407292_j18777597018266_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The two column forms of the layout operations -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One row of the block -/

/-- A row's log-softmax from its 40 logits: each shifted by the row's maximum (folded from `-∞`), minus the log of the
    sum of the shifted exponentials. -/
def rowLsm (z : Fin 40 → EReal) (q : Fin 40) : EReal :=
  (z q - (Finset.univ : Finset (Fin 40)).fold max Cert.Spec.negInf z)
    - Ideal.log (∑ k : Fin 40, Ideal.exp (z k - (Finset.univ : Finset (Fin 40)).fold max Cert.Spec.negInf z))

/-- The specification's entry is the row form at the row's logits. -/
theorem lsm_eq_rowLsm (s : (⟨2, ![100000, 40]⟩ : Shape).Idx → EReal) (b : (⟨2, ![1, 40]⟩ : Shape).Idx → EReal)
    (i : (⟨2, ![100000, 40]⟩ : Shape).Idx) :
    Cert.Spec.lsm s b i = rowLsm (Cert.Spec.logit s b (Cert.Spec.row i)) (Cert.Spec.col i) := rfl

/-- The index over row `p` of the reduced block with lane `k` inserted is `(p, k)`. -/
theorem lift_eq (p : Fin 5000) (k : Fin 40) : reduces_S5000x40_S5000.lift (ix1 p) k = ix2 p k := by
  funext c
  match c with
  | ⟨0, _⟩ => exact Fin.ext rfl
  | ⟨1, _⟩ => exact Fin.ext rfl

/-- A lane maximum folded from `-∞`, read at row `p`. -/
theorem rowMax_apply (z : FVec Ideal S5000x40 .f32) (hacc : (0xFF800000#32 : BitVec 32) = 0xFF800000#32) (p : Fin 5000) :
    multiReduction (F := Ideal) .maximumf [1] S5000 z 0xFF800000#32 reduces_S5000x40_S5000 (.inl rfl) hacc (ix1 p)
      = (Finset.univ : Finset (Fin 40)).fold max Cert.Spec.negInf (fun k => z (ix2 p k)) := by
  refine (Ideal.multiReduction_maximumf_single z 0xFF800000#32 reduces_S5000x40_S5000 (.inl rfl) hacc (ix1 p)).trans ?_
  show (Finset.univ : Finset (Fin 40)).fold max Cert.Spec.negInf (z ∘ reduces_S5000x40_S5000.lift (ix1 p)) = _
  congr 1
  funext k
  exact congrArg z (lift_eq p k)

/-- A lane sum from zero, read at row `p`. -/
theorem rowSum_apply (z : FVec Ideal S5000x40 .f32) (hacc : (0x00000000#32 : BitVec 32) = 0x00000000#32) (p : Fin 5000) :
    multiReduction (F := Ideal) .add [1] S5000 z 0x00000000#32 reduces_S5000x40_S5000 (.inl rfl) hacc (ix1 p)
      = ∑ k : Fin 40, z (ix2 p k) := by
  refine (Ideal.multiReduction_add_single z 0x00000000#32 reduces_S5000x40_S5000 (.inl rfl) hacc (ix1 p)).trans ?_
  show ∑ k : Fin 40, z (reduces_S5000x40_S5000.lift (ix1 p) k) = _
  exact Finset.sum_congr rfl fun k _ => congrArg z (lift_eq p k)

/-- The exponential and the logarithm of a vector, read at an index. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- THE PAYLOAD AT AN INDEX: entry `(p, q)` of what the body stores is the log-softmax of row `p`'s logits, the block's
    scores plus the bias row, at class `q`. -/
theorem pay_apply (x0 : FVec Ideal S5000x40 .f32) (x1 : FVec Ideal S1x40 .f32) (p : Fin 5000) (q : Fin 40) :
    k2_pay1 (F := Ideal) x0 x1 (ix2 p q) = rowLsm (fun k => x0 (ix2 p k) + x1 (ix2 (0 : Fin 1) k)) q := by
  -- the logits: the identity casts dropped, the bias row read at its one row
  have hz : ∀ k : Fin 40,
      addf (F := Ideal) (φ := .f32) (shapeCast S5000x40 x0 shapeCasts_S5000x40_S5000x40)
        (broadcastTo S5000x40 (shapeCast S1x40 x1 shapeCasts_S1x40_S1x40) broadcasts_S1x40_S5000x40) (ix2 p k)
        = x0 (ix2 p k) + x1 (ix2 (0 : Fin 1) k) := fun k => by
    rw [addf_apply, shapeCast_self, shapeCast_self, broadcastTo_1b_ab_apply]
  unfold k2_pay1
  dsimp only
  generalize addf (F := Ideal) (φ := .f32) (shapeCast S5000x40 x0 shapeCasts_S5000x40_S5000x40)
        (broadcastTo S5000x40 (shapeCast S1x40 x1 shapeCasts_S1x40_S1x40) broadcasts_S1x40_S5000x40) = z at hz ⊢
  -- the row's maximum, wherever it is broadcast back
  have hM : ∀ k : Fin 40,
      broadcastTo S5000x40 (shapeCast S5000x1
          (multiReduction (F := Ideal) .maximumf [1] S5000 z 0xFF800000#32 reduces_S5000x40_S5000 (.inl rfl) rfl)
          shapeCasts_S5000_S5000x1) broadcasts_S5000x1_S5000x40 (ix2 p k)
        = (Finset.univ : Finset (Fin 40)).fold max Cert.Spec.negInf (fun k' => z (ix2 p k')) := fun k => by
    rw [broadcastTo_a1_ab_apply, shapeCast_a_a1_apply, rowMax_apply]
  rw [subf_apply, subf_apply, hM, broadcastTo_a1_ab_apply, log_apply, shapeCast_a_a1_apply, rowSum_apply]
  unfold rowLsm
  have hfun : (fun k' : Fin 40 => z (ix2 p k')) = fun k => x0 (ix2 p k) + x1 (ix2 (0 : Fin 1) k) := funext hz
  simp only [exp_apply, subf_apply, hM, hfun, hz]

/-- The payload at `(p, q)` against the specification at an array index `i`: enough that the block's row `p` is the
    array's row of `i`, the bias block the bias row, and `q` the column of `i`. -/
theorem pay_eq_lsm (s : (⟨2, ![100000, 40]⟩ : Shape).Idx → EReal) (b : (⟨2, ![1, 40]⟩ : Shape).Idx → EReal)
    (x0 : FVec Ideal S5000x40 .f32) (x1 : FVec Ideal S1x40 .f32) (i : (⟨2, ![100000, 40]⟩ : Shape).Idx)
    (p : Fin 5000) (q : Fin 40)
    (h0 : ∀ k : Fin 40, x0 (ix2 p k) = s (ix2 (Cert.Spec.row i) k))
    (h1 : ∀ k : Fin 40, x1 (ix2 (0 : Fin 1) k) = b (ix2 (0 : Fin 1) k))
    (hq : q = Cert.Spec.col i) :
    k2_pay1 (F := Ideal) x0 x1 (ix2 p q) = Cert.Spec.lsm s b i := by
  rw [pay_apply, lsm_eq_rowLsm]
  subst hq
  congr 1
  funext k
  rw [h0, h1]
  rfl

/-! ## From blocks to the array -/

theorem hz2 : (![0, 0] : Fin 2 → Nat) = fun _ => 0 := funext fun a => by fin_cases a <;> rfl

/-- The printed index maps, decided over the grid: the scores' and the output's block at point `t` is row block `t`,
    the bias row's block is the whole row. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- WHAT POINT `t` WRITES BACK is block `t` of the log-softmax of the arrays as the region finds them. -/
theorem flushed_eq (c : Dev nD) (t : Fin cfg2.N) :
    (dat2 (F := Ideal) V c).flushed 2 t
      = ((cfg2.win 2).blk t).view.read (Elt Ideal) (Cert.Spec.lsm (V c main_v20) (V c main_v21)) := by
  show (cfg2.win 2).cut (grid2.coords t) ((dat2 (F := Ideal) V c).after 2 t) = _
  rw [after2_2]
  unfold out2_2
  rw [View.canon_unit_zero hz2]
  simp only [View.ld_unit_zero (S := S5000x40) hz2, View.ld_unit_zero (S := S1x40) hz2]
  obtain ⟨e00, e01, e10, e11, e20, e21⟩ := idx_facts t
  funext j
  have hp : (j 0).val < 5000 := (j 0).isLt
  have hq : (j 1).val < 40 := (j 1).isLt
  have hj : (win2 2).xinj (grid2.coords t) j = ix2 (⟨(j 0).val, hp⟩ : Fin 5000) (⟨(j 1).val, hq⟩ : Fin 40) := by
    funext a
    match a with
    | ⟨0, _⟩ => rfl
    | ⟨1, _⟩ => rfl
  show k2_pay1 (F := Ideal) (iblk2 V c 0 t) (iblk2 V c 1 t) ((win2 2).xinj (grid2.coords t) j)
      = Cert.Spec.lsm (V c main_v20) (V c main_v21) (((cfg2.win 2).blk t).view.emb j)
  refine (congrArg (k2_pay1 (F := Ideal) (iblk2 V c 0 t) (iblk2 V c 1 t)) hj).trans ?_
  refine pay_eq_lsm (V c main_v20) (V c main_v21) (iblk2 V c 0 t) (iblk2 V c 1 t) _ _ _ (fun k => ?_) (fun k => ?_) ?_
  · -- the scores' block at point `t` starts at row `5000 t`, where the output's does
    show V c main_v20 (((cfg2.win 0).blk t).view.emb (ix2 (⟨(j 0).val, hp⟩ : Fin 5000) k)) = _
    have h : ((cfg2.win 0).blk t).view.emb (ix2 (⟨(j 0).val, hp⟩ : Fin 5000) k)
        = ix2 (Cert.Spec.row (((cfg2.win 2).blk t).view.emb j)) k := by
      funext a
      apply Fin.ext
      match a with
      | ⟨0, _⟩ =>
        show win2_0.index t (0 : Fin 2) * 5000 + 1 * (j 0).val = win2_2.index t (0 : Fin 2) * 5000 + 1 * (j 0).val
        omega
      | ⟨1, _⟩ =>
        show win2_0.index t (1 : Fin 2) * 40 + 1 * k.val = k.val
        omega
    rw [h]
  · -- the bias row's block is the whole row
    show V c main_v21 (((cfg2.win 1).blk t).view.emb (ix2 (0 : Fin 1) k)) = _
    have h : ((cfg2.win 1).blk t).view.emb (ix2 (0 : Fin 1) k) = ix2 (0 : Fin 1) k := by
      funext a
      apply Fin.ext
      match a with
      | ⟨0, _⟩ =>
        show win2_1.index t (0 : Fin 2) * 1 + 1 * 0 = 0
        omega
      | ⟨1, _⟩ =>
        show win2_1.index t (1 : Fin 2) * 40 + 1 * k.val = k.val
        omega
    rw [h]
  · -- the output's blocks span all 40 columns
    apply Fin.ext
    show (j 1).val = win2_2.index t (1 : Fin 2) * 40 + 1 * (j 1).val
    omega

/-- An index of the output array is in point `t`'s block iff each coordinate is in the block's range on its axis. -/
theorem mem_blk (t : Fin cfg2.N) (i : S100000x40.Idx) :
    i ∈ ((cfg2.win 2).blk t).view.set
      ↔ ∀ a : Fin 2, win2_2.index t a * S5000x40.size a ≤ (i a).val
          ∧ (i a).val < win2_2.index t a * S5000x40.size a + S5000x40.size a := by
  show i ∈ ((View.whole main_v22).slice (win2_2.rect t)).set ↔ _
  rw [View.set_slice_whole, Rect.mem_set_unit]
  exact Iff.rfl

/-- THE COVER: row `r` of the output is in the block of point `r / 5000`, which writes back. -/
theorem cover (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 20 := N_2
  refine ⟨⟨(i 0).val / 5000, by rw [hN]; omega⟩, flush2_2 _, ?_⟩
  obtain ⟨-, -, -, -, e20, e21⟩ := idx_facts ⟨(i 0).val / 5000, by rw [hN]; omega⟩
  rw [mem_blk]
  intro a
  match a with
  | ⟨0, _⟩ =>
    show win2_2.index _ (0 : Fin 2) * 5000 ≤ (i 0).val ∧ (i 0).val < win2_2.index _ (0 : Fin 2) * 5000 + 5000
    rw [e20]
    show (i 0).val / 5000 * 5000 ≤ (i 0).val ∧ (i 0).val < (i 0).val / 5000 * 5000 + 5000
    omega
  | ⟨1, _⟩ =>
    show win2_2.index _ (1 : Fin 2) * 40 ≤ (i 1).val ∧ (i 1).val < win2_2.index _ (1 : Fin 2) * 40 + 40
    rw [e21]
    omega

/-- After the third pallas_call's twenty grid points, its output array is the row-wise log-softmax of `s + b` of the arrays it was entered with. -/
theorem final (c : Dev nD) :
    (dat2 (F := Ideal) V c).arrAt 2 cfg2.N = Cert.Spec.lsm (V c main_v20) (V c main_v21) :=
  (dat2 (F := Ideal) V c).arrAt_eq_of_cover 2 (Cert.Spec.lsm (V c main_v20) (V c main_v21))
    (fun t _ => flushed_eq V c t) cover

end Cert.KernelIdeal.Region2

end
-- ==== Proof.KernelChain.lean ====
/-
  The kernel program's result as one function of its arguments: the contents of the TensorCore's buffers are followed
  from the launch through the three pallas_calls and the host stretches between them. Each pallas_call's output array is the
  dense stage of its operands (the projection, the hidden layer, the log-softmax); each stretch between two calls
  is the sparse aggregation of the previous call's output; the arguments are never written.
-/
import proofs.«407292_j18777597018266_2_alg».proof.Proof.Gen.KernelIdeal.Frame
import proofs.«407292_j18777597018266_2_alg».proof.Proof.KernelStretch
import proofs.«407292_j18777597018266_2_alg».proof.Proof.Region0
import proofs.«407292_j18777597018266_2_alg».proof.Proof.Region1
import proofs.«407292_j18777597018266_2_alg».proof.Proof.Region2

set_option maxRecDepth 16384

noncomputable section

namespace Cert.KernelIdeal.Chain

open Cert.KernelIdeal Cert.KernelIdeal.Facts₀ Cert.KernelIdeal.Facts Cert.KernelIdeal.Agg
open Cert.KernelIdeal.Gen (W0 W1 W2 W3 W4 W5 W6 W7 W8 W9 W10 V1 V5 V9 W2_arr W2_of_ne W6_arr W6_of_ne W10_arr W10_of_ne)
open Idealize.ShloMosaic Idealize.ShloMosaic.TcCoe Idealize.SL.Sem Idealize.ShloMosaic.StableHlo

/-- The kernel's result as a function of its seven arguments. -/
def value (x : FVec Ideal S100000x512 .f32) (ei : IVec S2x3200000 32) (ev : FVec Ideal S3200000 .f32) (w1 : FVec Ideal S512x16 .f32)
    (b1 : FVec Ideal S16 .f32) (w2 : FVec Ideal S16x40 .f32) (b2 : FVec Ideal S40 .f32) : FVec Ideal S100000x40 .f32 :=
  Cert.Spec.lsm
    (spmm40 (take40
      (Cert.Spec.proj2
        (spmm16 (take16 (Cert.Spec.proj1 x w1) (srcOf ei)) (dstOf ei) ev)
        (shapeCast S1x16 b1 shapeCasts_S16_S1x16) w2)
      (srcOf ei)) (dstOf ei) ev)
    (shapeCast S1x40 b2 shapeCasts_S40_S1x40)

variable (m : (ℓ : Loc nD τ sig) → Buf (Elt Ideal) ℓ) (ρ : Dev nD → PrngReg) (c : Dev nD)

/-! ## At the first call's entry -/

theorem e1_x : W1 m ρ c (Proc.devRef .tc main_arg0) = m ((c : Thread nD τ).loc main_arg0) := (keep0_arg0 (W0 m ρ c)).trans rfl
theorem e1_ev : W1 m ρ c (Proc.devRef .tc main_arg2) = m ((c : Thread nD τ).loc main_arg2) := (keep0_arg2 (W0 m ρ c)).trans rfl
theorem e1_w1 : W1 m ρ c (Proc.devRef .tc main_arg3) = m ((c : Thread nD τ).loc main_arg3) := (keep0_arg3 (W0 m ρ c)).trans rfl
theorem e1_b1 : W1 m ρ c (Proc.devRef .tc main_arg4) = m ((c : Thread nD τ).loc main_arg4) := (keep0_arg4 (W0 m ρ c)).trans rfl
theorem e1_w2 : W1 m ρ c (Proc.devRef .tc main_arg5) = m ((c : Thread nD τ).loc main_arg5) := (keep0_arg5 (W0 m ρ c)).trans rfl
theorem e1_b2 : W1 m ρ c (Proc.devRef .tc main_arg6) = m ((c : Thread nD τ).loc main_arg6) := (keep0_arg6 (W0 m ρ c)).trans rfl
theorem e1_src : W1 m ρ c (Proc.devRef .tc main_v1) = srcOf (m ((c : Thread nD τ).loc main_arg1)) := (src_after (W0 m ρ c)).trans rfl
theorem e1_dst : W1 m ρ c (Proc.devRef .tc main_v3) = dstOf (m ((c : Thread nD τ).loc main_arg1)) := (dst_after (W0 m ρ c)).trans rfl

/-! ## At the first call's exit -/

theorem x1_h : W2 m ρ c (Proc.devRef .tc main_v4)
    = Cert.Spec.proj1 (m ((c : Thread nD τ).loc main_arg0)) (m ((c : Thread nD τ).loc main_arg3)) :=
  ((W2_arr m ρ c 2).trans (Region0.final (V1 m ρ) c)).trans (by
    show Cert.Spec.proj1 (W1 m ρ c (Proc.devRef .tc main_arg0)) (W1 m ρ c (Proc.devRef .tc main_arg3)) = _
    rw [e1_x, e1_w1])
theorem x1_src : W2 m ρ c (Proc.devRef .tc main_v1) = srcOf (m ((c : Thread nD τ).loc main_arg1)) :=
  (W2_of_ne m ρ c main_v1 (by decide)).trans (e1_src m ρ c)
theorem x1_dst : W2 m ρ c (Proc.devRef .tc main_v3) = dstOf (m ((c : Thread nD τ).loc main_arg1)) :=
  (W2_of_ne m ρ c main_v3 (by decide)).trans (e1_dst m ρ c)
theorem x1_ev : W2 m ρ c (Proc.devRef .tc main_arg2) = m ((c : Thread nD τ).loc main_arg2) :=
  (W2_of_ne m ρ c main_arg2 (by decide)).trans (e1_ev m ρ c)
theorem x1_b1 : W2 m ρ c (Proc.devRef .tc main_arg4) = m ((c : Thread nD τ).loc main_arg4) :=
  (W2_of_ne m ρ c main_arg4 (by decide)).trans (e1_b1 m ρ c)
theorem x1_w2 : W2 m ρ c (Proc.devRef .tc main_arg5) = m ((c : Thread nD τ).loc main_arg5) :=
  (W2_of_ne m ρ c main_arg5 (by decide)).trans (e1_w2 m ρ c)
theorem x1_b2 : W2 m ρ c (Proc.devRef .tc main_arg6) = m ((c : Thread nD τ).loc main_arg6) :=
  (W2_of_ne m ρ c main_arg6 (by decide)).trans (e1_b2 m ρ c)

/-! ## At the second call's entry -/

theorem e2_s : W5 m ρ c (Proc.devRef .tc main_v11)
    = spmm16 (F := Ideal) (take16 (F := Ideal) (Cert.Spec.proj1 (m ((c : Thread nD τ).loc main_arg0)) (m ((c : Thread nD τ).loc main_arg3)))
        (srcOf (m ((c : Thread nD τ).loc main_arg1)))) (dstOf (m ((c : Thread nD τ).loc main_arg1))) (m ((c : Thread nD τ).loc main_arg2)) :=
  (agg16_after (W2 m ρ c)).trans (by rw [x1_h, x1_src, x1_dst, x1_ev])
theorem e2_b : W5 m ρ c (Proc.devRef .tc main_v12) = shapeCast S1x16 (m ((c : Thread nD τ).loc main_arg4)) shapeCasts_S16_S1x16 :=
  (bias16_after (W2 m ρ c)).trans (by rw [x1_b1])
theorem e2_w2 : W5 m ρ c (Proc.devRef .tc main_arg5) = m ((c : Thread nD τ).loc main_arg5) := (keep1_arg5 (W2 m ρ c)).trans (x1_w2 m ρ c)
theorem e2_src : W5 m ρ c (Proc.devRef .tc main_v1) = srcOf (m ((c : Thread nD τ).loc main_arg1)) := (keep1_v1 (W2 m ρ c)).trans (x1_src m ρ c)
theorem e2_dst : W5 m ρ c (Proc.devRef .tc main_v3) = dstOf (m ((c : Thread nD τ).loc main_arg1)) := (keep1_v3 (W2 m ρ c)).trans (x1_dst m ρ c)
theorem e2_ev : W5 m ρ c (Proc.devRef .tc main_arg2) = m ((c : Thread nD τ).loc main_arg2) := (keep1_arg2 (W2 m ρ c)).trans (x1_ev m ρ c)
theorem e2_b2 : W5 m ρ c (Proc.devRef .tc main_arg6) = m ((c : Thread nD τ).loc main_arg6) := (keep1_arg6 (W2 m ρ c)).trans (x1_b2 m ρ c)

/-! ## At the second call's exit -/

theorem x2_l : W6 m ρ c (Proc.devRef .tc main_v13)
    = Cert.Spec.proj2
        (spmm16 (F := Ideal) (take16 (F := Ideal) (Cert.Spec.proj1 (m ((c : Thread nD τ).loc main_arg0)) (m ((c : Thread nD τ).loc main_arg3)))
          (srcOf (m ((c : Thread nD τ).loc main_arg1)))) (dstOf (m ((c : Thread nD τ).loc main_arg1))) (m ((c : Thread nD τ).loc main_arg2)))
        (shapeCast S1x16 (m ((c : Thread nD τ).loc main_arg4)) shapeCasts_S16_S1x16) (m ((c : Thread nD τ).loc main_arg5)) :=
  ((W6_arr m ρ c 3).trans (Region1.final (V5 m ρ) c)).trans (by
    show Cert.Spec.proj2 (W5 m ρ c (Proc.devRef .tc main_v11)) (W5 m ρ c (Proc.devRef .tc main_v12)) (W5 m ρ c (Proc.devRef .tc main_arg5)) = _
    rw [e2_s, e2_b, e2_w2])
theorem x2_src : W6 m ρ c (Proc.devRef .tc main_v1) = srcOf (m ((c : Thread nD τ).loc main_arg1)) :=
  (W6_of_ne m ρ c main_v1 (by decide)).trans (e2_src m ρ c)
theorem x2_dst : W6 m ρ c (Proc.devRef .tc main_v3) = dstOf (m ((c : Thread nD τ).loc main_arg1)) :=
  (W6_of_ne m ρ c main_v3 (by decide)).trans (e2_dst m ρ c)
theorem x2_ev : W6 m ρ c (Proc.devRef .tc main_arg2) = m ((c : Thread nD τ).loc main_arg2) :=
  (W6_of_ne m ρ c main_arg2 (by decide)).trans (e2_ev m ρ c)
theorem x2_b2 : W6 m ρ c (Proc.devRef .tc main_arg6) = m ((c : Thread nD τ).loc main_arg6) :=
  (W6_of_ne m ρ c main_arg6 (by decide)).trans (e2_b2 m ρ c)

/-! ## The result -/

/-- The result buffer at the last boundary is the kernel's function of the launch contents of the arguments. -/
theorem result : W10 m ρ c (Proc.devRef .tc main_v22)
    = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
  ((W10_arr m ρ c 2).trans (Region2.final (V9 m ρ) c)).trans (by
    show Cert.Spec.lsm (W9 m ρ c (Proc.devRef .tc main_v20)) (W9 m ρ c (Proc.devRef .tc main_v21)) = _
    rw [show W9 m ρ c (Proc.devRef .tc main_v20) = _ from agg40_after (W6 m ρ c),
      show W9 m ρ c (Proc.devRef .tc main_v21) = _ from bias40_after (W6 m ρ c), x2_l, x2_src, x2_dst, x2_ev, x2_b2]
    rfl)

end Cert.KernelIdeal.Chain

end
-- ==== Proof.RefChain.lean ====
/-
  The reference program's result as one function of its arguments, for any float values. Its 66 host operations are cut
  into stretches: the first projection; the first sparse aggregation (source indices counted from the end when negative,
  the rows gathered, scaled by the edge values and added into the destination rows) with the bias row; the hidden layer
  (bias, maximum with zero, second projection); the second aggregation with its bias row; the log-softmax one or two
  operations at a time (the logits, the row maxima, the shifted logits, the exponentials' sums, the result). Each stretch's result is read back from ANY contents of
  the buffers it reads, and the stretches are composed.
-/
import proofs.«407292_j18777597018266_2_alg».proof.Proof.RefRun
import Idealize.ShloMosaic.Lib.StableHlo.Run

set_option maxRecDepth 16384
set_option Elab.async false

noncomputable section

namespace Cert.ReferenceIdeal.Agg

open Cert.ReferenceIdeal Cert.ReferenceIdeal.Facts₀ Cert.ReferenceIdeal.Facts
open Cert.ReferenceIdeal.ValueP (ops)
open Idealize.ShloMosaic Idealize.ShloMosaic.TcCoe Idealize.SL.Sem Idealize.ShloMosaic.StableHlo

variable {F : FTy → Type} [FloatOps F]

/-- The first row of the edge list: each edge's source. -/
def srcOf (ei : IVec S2x3200000 32) : IVec S3200000 32 :=
  shapeCast S3200000 (extractStridedSlice S1x3200000 ![0, 0] ei slices_S2x3200000_S1x3200000_0_0) shapeCasts_S1x3200000_S3200000

/-- The second row of the edge list: each edge's destination. -/
def dstOf (ei : IVec S2x3200000 32) : IVec S3200000 32 :=
  shapeCast S3200000 (extractStridedSlice S1x3200000 ![1, 0] ei slices_S2x3200000_S1x3200000_1_0) shapeCasts_S1x3200000_S3200000

/-- A source index counted from the end when negative: `src + 100000` where `src < 0`, else `src`. -/
def wrap (src : IVec S3200000 32) : IVec S3200000 32 :=
  select (cmpi .slt src (broadcastInDim S3200000 ![] bcast_S_S3200000 (constantI S_ 32 0#32)))
    (addi src (broadcastInDim S3200000 ![] bcast_S_S3200000 (constantI S_ 32 100000#32))) src

/-- The wrapped indices as a column. -/
def col (src : IVec S3200000 32) : IVec S3200000x1 32 :=
  broadcastInDim S3200000x1 ![0] bcast_S3200000_S3200000x1_0 (wrap src)

/-- The table's rows of width 16 gathered at the wrapped source indices. -/
def gather16 (h : FVec F S100000x16 .f32) (src : IVec S3200000 32) : FVec F S3200000x16 .f32 :=
  Host.gather gather_S100000x16_S3200000x1_S3200000x16_1_0_n_n_0_1_116 h (col src)

/-- The sparse product of width 16: each edge's row scaled by the edge's value and added into the row of its destination. -/
def spmm16 (t : FVec F S3200000x16 .f32) (dst : IVec S3200000 32) (ev : FVec F S3200000 .f32) : FVec F S100000x16 .f32 :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 dst)
    (mulf (broadcastInDim S3200000x16 ![0, 1] bcast_S3200000x1_S3200000x16_0_1
      (broadcastInDim S3200000x1 ![0] bcast_S3200000_S3200000x1_0 ev)) t)

/-- The 16 biases as one row. -/
def biasRow16 (b : FVec F S16 .f32) : FVec F S1x16 .f32 :=
  broadcastInDim S1x16 ![1] bcast_S16_S1x16_1 b

/-- The table's rows of width 40 gathered at the wrapped source indices. -/
def gather40 (h : FVec F S100000x40 .f32) (src : IVec S3200000 32) : FVec F S3200000x40 .f32 :=
  Host.gather gather_S100000x40_S3200000x1_S3200000x40_1_0_n_n_0_1_140 h (col src)

/-- The sparse product of width 40: each edge's row scaled by the edge's value and added into the row of its destination. -/
def spmm40 (t : FVec F S3200000x40 .f32) (dst : IVec S3200000 32) (ev : FVec F S3200000 .f32) : FVec F S100000x40 .f32 :=
  Host.scatterAdd scatter_S100000x40_S3200000x1_S3200000x40_1_0_0_1
    (broadcastInDim S100000x40 ![] bcast_S_S100000x40 (constant S_ .f32 0x00000000#32))
    (broadcastInDim S3200000x1 ![0] bcast_S3200000_S3200000x1_0 dst)
    (mulf (broadcastInDim S3200000x40 ![0, 1] bcast_S3200000x1_S3200000x40_0_1
      (broadcastInDim S3200000x1 ![0] bcast_S3200000_S3200000x1_0 ev)) t)

/-- The 40 biases as one row. -/
def biasRow40 (b : FVec F S40 .f32) : FVec F S1x40 .f32 :=
  broadcastInDim S1x40 ![1] bcast_S40_S1x40_1 b

/-- The hidden layer as printed: the bias row broadcast over the nodes and added, the maximum with zero, then the host's
    `dot_general` with the second weights. -/
def hidden (s : FVec F S100000x16 .f32) (b : FVec F S1x16 .f32) (w : FVec F S16x40 .f32) : FVec F S100000x40 .f32 :=
  Host.dotGeneral dot_S100000x16_S16x40_S100000x40_1_0_0_1_n_n none
    (maximumf (addf s (broadcastInDim S100000x16 ![0, 1] bcast_S1x16_S100000x16_0_1 b))
      (broadcastInDim S100000x16 ![] bcast_S_S100000x16 (constant S_ .f32 0x00000000#32))) w

/-- The logits: the aggregated scores plus the bias row. -/
def logits (s : FVec F S100000x40 .f32) (b : FVec F S1x40 .f32) : FVec F S100000x40 .f32 :=
  addf s (broadcastInDim S100000x40 ![0, 1] bcast_S1x40_S100000x40_0_1 b)

/-- The row maxima: the reduce from `-∞`, then the maximum with `-∞` again. -/
def rowMaxima (z : FVec F S100000x40 .f32) : FVec F S100000 .f32 :=
  maximumf (broadcastInDim S100000 ![] bcast_S_S100000 (constant S_ .f32 0xFF800000#32))
    (Host.reduce FloatOps.maximumf z (constant S_ .f32 0xFF800000#32) reducesTo_S100000x40_S100000_d1 h_S_)

/-- The logits shifted by their row's maximum. -/
def shifted (z : FVec F S100000x40 .f32) (mx : FVec F S100000 .f32) : FVec F S100000x40 .f32 :=
  subf z (broadcastInDim S100000x40 ![0, 1] bcast_S100000x1_S100000x40_0_1 (broadcastInDim S100000x1 ![0] bcast_S100000_S100000x1_0 mx))

/-- The shifted logits minus the logarithm of their exponentials' row sums. -/
def normalised (sh : FVec F S100000x40 .f32) : FVec F S100000x40 .f32 :=
  subf sh (broadcastInDim S100000x40 ![0, 1] bcast_S100000x1_S100000x40_0_1
    (Host.log (broadcastInDim S100000x1 ![0] bcast_S100000_S100000x1_0
      (Host.reduceAdd (Host.exp sh) (constant S_ .f32 0x00000000#32) reducesTo_S100000x40_S100000_d1 h_S_))))

/-- The row-wise log-softmax of the aggregated scores plus the bias row. -/
def logSoftmaxOf (s : FVec F S100000x40 .f32) (b : FVec F S1x40 .f32) : FVec F S100000x40 .f32 :=
  normalised (shifted (logits s b) (rowMaxima (logits s b)))

variable (X : Valuation τ sig (Elt F))

/-- The stretches, in order. -/
abbrev opsA : List (HloOp τ sig (Elt F)) := ops.take 1
abbrev opsB : List (HloOp τ sig (Elt F)) := (ops.drop 1).take 21
abbrev opsC : List (HloOp τ sig (Elt F)) := (ops.drop 22).take 6
abbrev opsD : List (HloOp τ sig (Elt F)) := (ops.drop 28).take 21
abbrev opsE1 : List (HloOp τ sig (Elt F)) := (ops.drop 49).take 2
abbrev opsS2 : List (HloOp τ sig (Elt F)) := (ops.drop 51).take 2
abbrev opsS3 : List (HloOp τ sig (Elt F)) := (ops.drop 53).take 2
abbrev opsS4 : List (HloOp τ sig (Elt F)) := (ops.drop 55).take 1
abbrev opsS5 : List (HloOp τ sig (Elt F)) := (ops.drop 56).take 2
abbrev opsS6 : List (HloOp τ sig (Elt F)) := (ops.drop 58).take 1
abbrev opsS7 : List (HloOp τ sig (Elt F)) := (ops.drop 59).take 1
abbrev opsS8 : List (HloOp τ sig (Elt F)) := (ops.drop 60).take 2
abbrev opsS9 : List (HloOp τ sig (Elt F)) := (ops.drop 62).take 2
abbrev opsS10 : List (HloOp τ sig (Elt F)) := ops.drop 64

local macro "stretch_eval" : tactic =>
  `(tactic| (simp only [opsA, opsB, opsC, opsD, opsE1, opsS2, opsS3, opsS4, opsS5, opsS6, opsS7, opsS8, opsS9, opsS10, ops, List.drop_succ_cons, List.take_succ_cons, List.drop_zero,
      List.take_zero]; after_results_simp))

-- the reductions, the gather and the scatter are compared by their arguments, never opened
attribute [local irreducible] Host.reduce Host.reduceAdd Host.gather Host.scatterAdd

set_option maxHeartbeats 4000000 in
theorem split : after ops X
    = after opsS10 (after opsS9 (after opsS8 (after opsS7 (after opsS6 (after opsS5 (after opsS4 (after opsS3 (after opsS2 (after opsE1
        (after opsD (after opsC (after opsB (after opsA X))))))))))))) := rfl

/-! ## The first projection -/

set_option maxHeartbeats 4000000 in
theorem A_v0 : after opsA X (Proc.devRef .tc main_v0)
    = Host.dotGeneral (F := F) (φ₁ := .f32) (φ₂ := .f32) dot_S100000x512_S512x16_S100000x16_1_0_0_1_n_n none
        (X (Proc.devRef .tc main_arg0)) (X (Proc.devRef .tc main_arg3)) := by
  stretch_eval <;> rfl
set_option maxHeartbeats 4000000 in
theorem A_arg1 : after opsA X (Proc.devRef .tc main_arg1) = X (Proc.devRef .tc main_arg1) := by stretch_eval <;> rfl
set_option maxHeartbeats 4000000 in
theorem A_arg2 : after opsA X (Proc.devRef .tc main_arg2) = X (Proc.devRef .tc main_arg2) := by stretch_eval <;> rfl
set_option maxHeartbeats 4000000 in
theorem A_arg4 : after opsA X (Proc.devRef .tc main_arg4) = X (Proc.devRef .tc main_arg4) := by stretch_eval <;> rfl
set_option maxHeartbeats 4000000 in
theorem A_arg5 : after opsA X (Proc.devRef .tc main_arg5) = X (Proc.devRef .tc main_arg5) := by stretch_eval <;> rfl
set_option maxHeartbeats 4000000 in
theorem A_arg6 : after opsA X (Proc.devRef .tc main_arg6) = X (Proc.devRef .tc main_arg6) := by stretch_eval <;> rfl

/-! ## The first aggregation and the first bias row -/

set_option maxHeartbeats 4000000 in
theorem B_v17 : after opsB X (Proc.devRef .tc main_v17)
    = spmm16 (F := F) (gather16 (X (Proc.devRef .tc main_v0)) (srcOf (X (Proc.devRef .tc main_arg1)))) (dstOf (X (Proc.devRef .tc main_arg1))) (X (Proc.devRef .tc main_arg2)) := by
  stretch_eval <;> rfl
set_option maxHeartbeats 4000000 in
theorem B_v18 : after opsB X (Proc.devRef .tc main_v18) = biasRow16 (F := F) (X (Proc.devRef .tc main_arg4)) := by stretch_eval <;> rfl
set_option maxHeartbeats 4000000 in
theorem B_arg1 : after opsB X (Proc.devRef .tc main_arg1) = X (Proc.devRef .tc main_arg1) := by stretch_eval <;> rfl
set_option maxHeartbeats 4000000 in
theorem B_arg2 : after opsB X (Proc.devRef .tc main_arg2) = X (Proc.devRef .tc main_arg2) := by stretch_eval <;> rfl
set_option maxHeartbeats 4000000 in
theorem B_arg5 : after opsB X (Proc.devRef .tc main_arg5) = X (Proc.devRef .tc main_arg5) := by stretch_eval <;> rfl
set_option maxHeartbeats 4000000 in
theorem B_arg6 : after opsB X (Proc.devRef .tc main_arg6) = X (Proc.devRef .tc main_arg6) := by stretch_eval <;> rfl

/-! ## The hidden layer -/

set_option maxHeartbeats 4000000 in
theorem C_v22 : after opsC X (Proc.devRef .tc main_v22)
    = hidden (F := F) (X (Proc.devRef .tc main_v17)) (X (Proc.devRef .tc main_v18)) (X (Proc.devRef .tc main_arg5)) := by
  stretch_eval <;> rfl
set_option maxHeartbeats 4000000 in
theorem C_arg1 : after opsC X (Proc.devRef .tc main_arg1) = X (Proc.devRef .tc main_arg1) := by stretch_eval <;> rfl
set_option maxHeartbeats 4000000 in
theorem C_arg2 : after opsC X (Proc.devRef .tc main_arg2) = X (Proc.devRef .tc main_arg2) := by stretch_eval <;> rfl
set_option maxHeartbeats 4000000 in
theorem C_arg6 : after opsC X (Proc.devRef .tc main_arg6) = X (Proc.devRef .tc main_arg6) := by stretch_eval <;> rfl

/-! ## The second aggregation and the second bias row -/

set_option maxHeartbeats 4000000 in
theorem D_v39 : after opsD X (Proc.devRef .tc main_v39)
    = spmm40 (F := F) (gather40 (X (Proc.devRef .tc main_v22)) (srcOf (X (Proc.devRef .tc main_arg1)))) (dstOf (X (Proc.devRef .tc main_arg1))) (X (Proc.devRef .tc main_arg2)) := by
  stretch_eval <;> rfl
set_option maxHeartbeats 4000000 in
theorem D_v40 : after opsD X (Proc.devRef .tc main_v40) = biasRow40 (F := F) (X (Proc.devRef .tc main_arg6)) := by stretch_eval <;> rfl

/-! ## The log-softmax, one or two operations at a time -/

set_option maxHeartbeats 4000000 in
theorem E1_z : after opsE1 X (Proc.devRef .tc main_v42)
    = logits (F := F) (X (Proc.devRef .tc main_v39)) (X (Proc.devRef .tc main_v40)) := by
  stretch_eval <;> rfl

set_option maxHeartbeats 4000000 in
/-- The rows' maxima, reduced from `-∞`. -/
theorem S2_red : after opsS2 X (Proc.devRef .tc main_call1_v0)
    = Host.reduce FloatOps.maximumf (X (Proc.devRef .tc main_v42) : FVec F S100000x40 .f32) (constant (F := F) S_ .f32 0xFF800000#32)
        reducesTo_S100000x40_S100000_d1 h_S_ := by
  stretch_eval <;> rfl
set_option maxHeartbeats 4000000 in
theorem S2_z : after opsS2 X (Proc.devRef .tc main_v42) = X (Proc.devRef .tc main_v42) := by stretch_eval <;> rfl

set_option maxHeartbeats 4000000 in
/-- `-∞` once per row. -/
theorem S3_inf : after opsS3 X (Proc.devRef .tc main_call1_v1)
    = broadcastInDim S100000 ![] bcast_S_S100000 (constant (F := F) S_ .f32 0xFF800000#32) := by
  stretch_eval <;> rfl
set_option maxHeartbeats 4000000 in
theorem S3_z : after opsS3 X (Proc.devRef .tc main_v42) = X (Proc.devRef .tc main_v42) := by stretch_eval <;> rfl
set_option maxHeartbeats 4000000 in
theorem S3_red : after opsS3 X (Proc.devRef .tc main_call1_v0) = X (Proc.devRef .tc main_call1_v0) := by stretch_eval <;> rfl

set_option maxHeartbeats 4000000 in
/-- The maximum of the two. -/
theorem S4_mx : after opsS4 X (Proc.devRef .tc main_call1_v2)
    = maximumf (X (Proc.devRef .tc main_call1_v1) : FVec F S100000 .f32) (X (Proc.devRef .tc main_call1_v0) : FVec F S100000 .f32) := by
  stretch_eval <;> rfl
set_option maxHeartbeats 4000000 in
theorem S4_z : after opsS4 X (Proc.devRef .tc main_v42) = X (Proc.devRef .tc main_v42) := by stretch_eval <;> rfl

set_option maxHeartbeats 4000000 in
/-- The maxima broadcast back over the classes. -/
theorem S5_bc : after opsS5 X (Proc.devRef .tc main_call1_v4)
    = broadcastInDim S100000x40 ![0, 1] bcast_S100000x1_S100000x40_0_1
        (broadcastInDim S100000x1 ![0] bcast_S100000_S100000x1_0 (X (Proc.devRef .tc main_call1_v2) : FVec F S100000 .f32)) := by
  stretch_eval <;> rfl
set_option maxHeartbeats 4000000 in
theorem S5_z : after opsS5 X (Proc.devRef .tc main_v42) = X (Proc.devRef .tc main_v42) := by stretch_eval <;> rfl

set_option maxHeartbeats 4000000 in
/-- The shifted logits. -/
theorem S6_sh : after opsS6 X (Proc.devRef .tc main_call1_v5)
    = subf (X (Proc.devRef .tc main_v42) : FVec F S100000x40 .f32) (X (Proc.devRef .tc main_call1_v4) : FVec F S100000x40 .f32) := by
  stretch_eval <;> rfl

set_option maxHeartbeats 4000000 in
/-- Their exponentials. -/
theorem S7_exp : after opsS7 X (Proc.devRef .tc main_call1_v6)
    = Host.exp (X (Proc.devRef .tc main_call1_v5) : FVec F S100000x40 .f32) := by
  stretch_eval <;> rfl
set_option maxHeartbeats 4000000 in
theorem S7_sh : after opsS7 X (Proc.devRef .tc main_call1_v5) = X (Proc.devRef .tc main_call1_v5) := by stretch_eval <;> rfl

set_option maxHeartbeats 4000000 in
/-- The exponentials' row sums. -/
theorem S8_sum : after opsS8 X (Proc.devRef .tc main_call1_v7)
    = Host.reduceAdd (X (Proc.devRef .tc main_call1_v6) : FVec F S100000x40 .f32) (constant (F := F) S_ .f32 0x00000000#32)
        reducesTo_S100000x40_S100000_d1 h_S_ := by
  stretch_eval <;> rfl
set_option maxHeartbeats 4000000 in
theorem S8_sh : after opsS8 X (Proc.devRef .tc main_call1_v5) = X (Proc.devRef .tc main_call1_v5) := by stretch_eval <;> rfl

set_option maxHeartbeats 4000000 in
/-- Their logarithms, as a column. -/
theorem S9_log : after opsS9 X (Proc.devRef .tc main_call1_v9)
    = Host.log (broadcastInDim S100000x1 ![0] bcast_S100000_S100000x1_0 (X (Proc.devRef .tc main_call1_v7) : FVec F S100000 .f32)) := by
  stretch_eval <;> rfl
set_option maxHeartbeats 4000000 in
theorem S9_sh : after opsS9 X (Proc.devRef .tc main_call1_v5) = X (Proc.devRef .tc main_call1_v5) := by stretch_eval <;> rfl

set_option maxHeartbeats 4000000 in
/-- The result. -/
theorem S10_out : after opsS10 X (Proc.devRef .tc main_v43)
    = subf (X (Proc.devRef .tc main_call1_v5) : FVec F S100000x40 .f32)
        (broadcastInDim S100000x40 ![0, 1] bcast_S100000x1_S100000x40_0_1 (X (Proc.devRef .tc main_call1_v9) : FVec F S100000x1 .f32)) := by
  stretch_eval <;> rfl

/-! ## The composition -/

/-- The reference's result as a function of its seven arguments. -/
def value (x : FVec F S100000x512 .f32) (ei : IVec S2x3200000 32) (ev : FVec F S3200000 .f32) (w1 : FVec F S512x16 .f32)
    (b1 : FVec F S16 .f32) (w2 : FVec F S16x40 .f32) (b2 : FVec F S40 .f32) : FVec F S100000x40 .f32 :=
  logSoftmaxOf
    (spmm40 (gather40
      (hidden
        (spmm16 (gather16 (Host.dotGeneral dot_S100000x512_S512x16_S100000x16_1_0_0_1_n_n none x w1) (srcOf ei)) (dstOf ei) ev)
        (biasRow16 b1) w2)
      (srcOf ei)) (dstOf ei) ev)
    (biasRow40 b2)

theorem result : after ops X (Proc.devRef .tc main_v43)
    = value (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) := by
  rw [split, S10_out, S9_log, S9_sh, S8_sum, S8_sh, S7_exp, S7_sh, S6_sh, S5_bc, S5_z, S4_mx, S4_z, S3_inf, S3_z, S3_red, S2_red, S2_z, E1_z, D_v39, D_v40, C_v22, C_arg1, C_arg2, C_arg6, B_v17, B_v18, B_arg1, B_arg2, B_arg5, B_arg6,
    A_v0, A_arg1, A_arg2, A_arg4, A_arg5, A_arg6]
  rfl

end Cert.ReferenceIdeal.Agg

end
-- ==== Proof.PreRange.lean ====
/-
  The precondition, read back: where the printed predicate is all ones, every entry of the edge list's first row (the
  edges' sources) lies in [-100000, 100000).
-/
import proofs.«407292_j18777597018266_2_alg».proof.Pre_finite_inputs
import proofs.«407292_j18777597018266_2_alg».proof.Proof.Gen.Pre_finite_inputs
import Idealize.ShloMosaic.PureOps.Ideal
import Idealize.ShloMosaic.Lib.Affine
import Idealize.ShloMosaic.Lib.ReduceAll
import Idealize.ShloMosaic.Lib.ValueIdx
import Idealize.ShloMosaic.Lib.StableHlo.Predicate

set_option maxRecDepth 16384

noncomputable section

namespace Cert.Pre_finite_inputs.Range

open Cert.Pre_finite_inputs Cert.Pre_finite_inputs.Facts
open Idealize.ShloMosaic Idealize.SL.Sem

variable {F : FTy → Type} [FloatOps F]

/-- The first row of the edge list: each edge's source. -/
def srcOf (ei : IVec S2x3200000 32) : IVec S3200000 32 :=
  shapeCast S3200000 (extractStridedSlice S1x3200000 ![0, 0] ei slices_S2x3200000_S1x3200000_0_0) shapeCasts_S1x3200000_S3200000

/-- Where the precondition holds, every source index lies in [-100000, 100000). -/
theorem src_in_domain (x : FVec F S100000x512 .f32) (ei : IVec S2x3200000 32) (ev : FVec F S3200000 .f32)
    (w1 : FVec F S512x16 .f32) (b1 : FVec F S16 .f32) (w2 : FVec F S16x40 .f32) (b2 : FVec F S40 .f32)
    (h : fn (F := F) x ei ev w1 b1 w2 b2 = fun _ => 1#1) :
    ∀ e : S3200000.Idx, (-100000 : Int) ≤ (srcOf ei e).toInt ∧ (srcOf ei e).toInt < 100000 := by
  intro e
  -- the scalar shape has one index
  haveI : Subsingleton S_.Idx := ⟨fun a b => funext fun d => d.elim0⟩
  have h0 := congrFun h ValueIdx.ix0
  dsimp only [fn, fn_part1, fn_part2] at h0
  -- the chain of conjunctions ends in the two range tests of the sources
  obtain ⟨h1, hlt⟩ := IntOp.andi_eq_one.1 h0
  obtain ⟨_, hge⟩ := IntOp.andi_eq_one.1 h1
  -- a conjunction over all entries that is one is one at entry e
  have hge' := Host.reduce_andi_all _ _ _ _ _ hge e
  have hlt' := Host.reduce_andi_all _ _ _ _ _ hlt e
  -- each test compares the entry, signed, with a constant word
  have hge'' : (4294867296#32 : BitVec 32).toInt ≤ (srcOf ei e).toInt := IntOp.cmpi_sge.1 hge'
  have hlt'' : (srcOf ei e).toInt < (100000#32 : BitVec 32).toInt := IntOp.cmpi_slt.1 hlt'
  have c1 : (4294867296#32 : BitVec 32).toInt = -100000 := by decide
  have c2 : (100000#32 : BitVec 32).toInt = 100000 := by decide
  exact ⟨c1 ▸ hge'', c2 ▸ hlt''⟩

end Cert.Pre_finite_inputs.Range

end
-- ==== Proof.RefDense0.lean ====
import proofs.«407292_j18777597018266_2_alg».proof.ReferenceIdeal
import proofs.«407292_j18777597018266_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Dense0

open Cert.ReferenceIdeal Cert.ReferenceIdeal.Facts₀ Cert.ReferenceIdeal.Facts
open Idealize.ShloMosaic Idealize.ShloMosaic.ValueIdx

variable [Cert.ReferenceIdeal.Facts]

/-! ## The operand indices of the first product, axis by axis

The features are contracted on their second axis and the weights on their first; neither side has a batch axis. So at
result index `j` and contraction index `k` the left operand is read at (row of `j`, `k`) and the right one at
(`k`, column of `j`). Each of the four coordinates is stated on its own, at the literal axis. -/

/-- The left operand's first axis is kept: it reads the result index's row. -/
theorem lhs_0 (j : S100000x16.Idx) (k : dot_S100000x512_S512x16_S100000x16_1_0_0_1_n_n.contr.Idx) :
    (dot_S100000x512_S512x16_S100000x16_1_0_0_1_n_n.lhsIdx j k 0).val = (j 0).val := rfl

/-- The left operand's second axis is the contracted one: it reads the contraction index's one coordinate. -/
theorem lhs_1 (j : S100000x16.Idx) (k : dot_S100000x512_S512x16_S100000x16_1_0_0_1_n_n.contr.Idx) :
    (dot_S100000x512_S512x16_S100000x16_1_0_0_1_n_n.lhsIdx j k 1).val = (k ⟨0, Nat.one_pos⟩).val :=
  dot_S100000x512_S512x16_S100000x16_1_0_0_1_n_n.lhsIdx_val_of_single rfl j k

/-- The right operand's first axis is the contracted one: it reads the contraction index's one coordinate. -/
theorem rhs_0 (j : S100000x16.Idx) (k : dot_S100000x512_S512x16_S100000x16_1_0_0_1_n_n.contr.Idx) :
    (dot_S100000x512_S512x16_S100000x16_1_0_0_1_n_n.rhsIdx j k 0).val = (k ⟨0, Nat.one_pos⟩).val :=
  dot_S100000x512_S512x16_S100000x16_1_0_0_1_n_n.rhsIdx_val_of_single rfl j k

/-- The right operand's second axis is kept: it reads the result index's column. -/
theorem rhs_1 (j : S100000x16.Idx) (k : dot_S100000x512_S512x16_S100000x16_1_0_0_1_n_n.contr.Idx) :
    (dot_S100000x512_S512x16_S100000x16_1_0_0_1_n_n.rhsIdx j k 1).val = (j 1).val := rfl

/-- The reference's first projection, the host's `dot_general` of the features and the first weights, is `x · w` entry by entry. -/
theorem proj1_eq (x : FVec Ideal S100000x512 .f32) (w : FVec Ideal S512x16 .f32) :
    Host.dotGeneral (F := Ideal) dot_S100000x512_S512x16_S100000x16_1_0_0_1_n_n none x w = Cert.Spec.proj1 x w := by
  funext i
  -- the host's product at an index is the sum, over the contraction index, of the operands' products
  show FloatOps.dotGeneral dot_S100000x512_S512x16_S100000x16_1_0_0_1_n_n none .single x w i
    = ∑ c : Fin 512, x (ix2 (Cert.Spec.row i) c) * w (ix2 c (Cert.Spec.col i))
  rw [Ideal.dotGeneral_apply,
    ← Equiv.sum_comp (contrEquiv1 dot_S100000x512_S512x16_S100000x16_1_0_0_1_n_n 512 rfl rfl).symm]
  -- the one contracted axis has 512 positions: re-index the sum by the position, then compare term by term
  refine Finset.sum_congr rfl fun c _ => ?_
  have hk := contrEquiv1_symm_val dot_S100000x512_S512x16_S100000x16_1_0_0_1_n_n 512 rfl rfl c
  have hl : dot_S100000x512_S512x16_S100000x16_1_0_0_1_n_n.lhsIdx i ((contrEquiv1 dot_S100000x512_S512x16_S100000x16_1_0_0_1_n_n 512 rfl rfl).symm c)
      = ix2 (Cert.Spec.row i) c := by
    funext ax; apply Fin.ext
    match ax with
    | ⟨0, _⟩ => exact lhs_0 _ _
    | ⟨1, _⟩ => exact (lhs_1 _ _).trans hk
  have hr : dot_S100000x512_S512x16_S100000x16_1_0_0_1_n_n.rhsIdx i ((contrEquiv1 dot_S100000x512_S512x16_S100000x16_1_0_0_1_n_n 512 rfl rfl).symm c)
      = ix2 c (Cert.Spec.col i) := by
    funext ax; apply Fin.ext
    match ax with
    | ⟨0, _⟩ => exact (rhs_0 _ _).trans hk
    | ⟨1, _⟩ => exact rhs_1 _ _
  rw [hl, hr]

end Cert.ReferenceIdeal.Dense0

end
-- ==== Proof.RefDense1.lean ====
import proofs.«407292_j18777597018266_2_alg».proof.ReferenceIdeal
import proofs.«407292_j18777597018266_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

set_option maxRecDepth 16384

noncomputable section

open scoped BigOperators

namespace Cert.ReferenceIdeal.Dense1

open Cert.ReferenceIdeal Cert.ReferenceIdeal.Facts₀ Cert.ReferenceIdeal.Facts
open Idealize.ShloMosaic Idealize.ShloMosaic.ValueIdx

variable [Cert.ReferenceIdeal.Facts]

/-- The reference's hidden layer as printed: the bias row broadcast over the nodes and added, the maximum with zero, then the host's
    `dot_general` with the second weights. -/
def reluProj (s : FVec Ideal S100000x16 .f32) (b : FVec Ideal S1x16 .f32) (w : FVec Ideal S16x40 .f32) : FVec Ideal S100000x40 .f32 :=
  Host.dotGeneral (F := Ideal) dot_S100000x16_S16x40_S100000x40_1_0_0_1_n_n none
    (maximumf (addf s (broadcastInDim S100000x16 ![0, 1] bcast_S1x16_S100000x16_0_1 b))
      (broadcastInDim S100000x16 ![] bcast_S_S100000x16 (constant S_ .f32 0x00000000#32))) w

/-! ### The dot's operand indices, axis by axis

The record contracts the left operand's axis `1` with the right operand's axis `0`; the result's axes are the
left operand's axis `0` followed by the right operand's axis `1`. -/

/-- The left operand's row coordinate is the result's row coordinate. -/
theorem lhs_dot_0 (j : S100000x40.Idx) (k : dot_S100000x16_S16x40_S100000x40_1_0_0_1_n_n.contr.Idx) :
    (dot_S100000x16_S16x40_S100000x40_1_0_0_1_n_n.lhsIdx j k 0).val = (j 0).val := by
  unfold DotDims.lhsIdx
  rw [dif_neg (show ¬(0 : Fin S100000x16.rank) ∈ dot_S100000x16_S16x40_S100000x40_1_0_0_1_n_n.lhsBatch from List.not_mem_nil),
    dif_pos (show (0 : Fin S100000x16.rank) ∈ dot_S100000x16_S16x40_S100000x40_1_0_0_1_n_n.lhsNonContracting from List.mem_singleton.mpr rfl)]
  rfl

/-- The left operand's column coordinate is the contraction index's one coordinate. -/
theorem lhs_dot_1 (j : S100000x40.Idx) (k : dot_S100000x16_S16x40_S100000x40_1_0_0_1_n_n.contr.Idx) :
    (dot_S100000x16_S16x40_S100000x40_1_0_0_1_n_n.lhsIdx j k 1).val = (k ⟨0, Nat.one_pos⟩).val :=
  dot_S100000x16_S16x40_S100000x40_1_0_0_1_n_n.lhsIdx_val_of_single rfl j k

/-- The right operand's row coordinate is the contraction index's one coordinate. -/
theorem rhs_dot_0 (j : S100000x40.Idx) (k : dot_S100000x16_S16x40_S100000x40_1_0_0_1_n_n.contr.Idx) :
    (dot_S100000x16_S16x40_S100000x40_1_0_0_1_n_n.rhsIdx j k 0).val = (k ⟨0, Nat.one_pos⟩).val :=
  dot_S100000x16_S16x40_S100000x40_1_0_0_1_n_n.rhsIdx_val_of_single rfl j k

/-- The right operand's column coordinate is the result's column coordinate. -/
theorem rhs_dot_1 (j : S100000x40.Idx) (k : dot_S100000x16_S16x40_S100000x40_1_0_0_1_n_n.contr.Idx) :
    (dot_S100000x16_S16x40_S100000x40_1_0_0_1_n_n.rhsIdx j k 1).val = (j 1).val := by
  unfold DotDims.rhsIdx
  rw [dif_neg (show ¬(1 : Fin S16x40.rank) ∈ dot_S100000x16_S16x40_S100000x40_1_0_0_1_n_n.rhsBatch from List.not_mem_nil),
    dif_pos (show (1 : Fin S16x40.rank) ∈ dot_S100000x16_S16x40_S100000x40_1_0_0_1_n_n.rhsNonContracting from List.mem_singleton.mpr rfl)]
  rfl

/-- At the contraction index whose one coordinate is `k`, the left operand is read at `(row, k)`. -/
theorem lhs_dot_eq (i : S100000x40.Idx) (k : Fin 16) :
    dot_S100000x16_S16x40_S100000x40_1_0_0_1_n_n.lhsIdx i
        ((contrEquiv1 dot_S100000x16_S16x40_S100000x40_1_0_0_1_n_n 16 rfl rfl).symm k)
      = ix2 (Cert.Spec.row i) k := by
  funext a
  refine Fin.ext ?_
  match a with
  | ⟨0, _⟩ => exact lhs_dot_0 _ _
  | ⟨1, _⟩ => exact (lhs_dot_1 _ _).trans (contrEquiv1_symm_val _ 16 rfl rfl k)

/-- … and the right operand at `(k, col)`. -/
theorem rhs_dot_eq (i : S100000x40.Idx) (k : Fin 16) :
    dot_S100000x16_S16x40_S100000x40_1_0_0_1_n_n.rhsIdx i
        ((contrEquiv1 dot_S100000x16_S16x40_S100000x40_1_0_0_1_n_n 16 rfl rfl).symm k)
      = ix2 k (Cert.Spec.col i) := by
  funext a
  refine Fin.ext ?_
  match a with
  | ⟨0, _⟩ => exact (rhs_dot_0 _ _).trans (contrEquiv1_symm_val _ 16 rfl rfl k)
  | ⟨1, _⟩ => exact rhs_dot_1 _ _

/-- The hidden layer's entry `(r, k)`: the score plus the bias row's entry, cut below at zero. -/
theorem relu_apply (s : FVec Ideal S100000x16 .f32) (b : FVec Ideal S1x16 .f32) (r : Fin 100000) (k : Fin 16) :
    maximumf (addf s (broadcastInDim S100000x16 ![0, 1] bcast_S1x16_S100000x16_0_1 b))
        (broadcastInDim S100000x16 ![] bcast_S_S100000x16 (constant (F := Ideal) S_ .f32 0x00000000#32)) (ix2 r k)
      = max (s (ix2 r k) + b (ix2 (0 : Fin 1) k)) 0 := by
  rw [maximumf_apply, addf_apply, broadcastInDim_oneRow_apply, broadcastInDim_scalar_apply, constant_apply,
    Ideal.ofBits_zero_f32]

/-- Entry by entry it is `relu (s + b) · w`. -/
theorem reluProj_eq (s : FVec Ideal S100000x16 .f32) (b : FVec Ideal S1x16 .f32) (w : FVec Ideal S16x40 .f32) :
    reluProj s b w = Cert.Spec.proj2 s b w := by
  funext i
  unfold reluProj Cert.Spec.proj2
  simp only [Host.dotGeneral]
  rw [Ideal.dotGeneral_apply,
    ← Equiv.sum_comp (contrEquiv1 dot_S100000x16_S16x40_S100000x40_1_0_0_1_n_n 16 rfl rfl).symm]
  refine Finset.sum_congr rfl fun k _ => ?_
  rw [lhs_dot_eq, rhs_dot_eq, relu_apply]

end Cert.ReferenceIdeal.Dense1

end
-- ==== Proof.RefDense2.lean ====
import proofs.«407292_j18777597018266_2_alg».proof.ReferenceIdeal
import proofs.«407292_j18777597018266_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Dense2

open Cert.ReferenceIdeal Cert.ReferenceIdeal.Facts₀ Cert.ReferenceIdeal.Facts
open Idealize.ShloMosaic Idealize.ShloMosaic.ValueIdx

variable [Cert.ReferenceIdeal.Facts]

/-- The reference's output layer as printed: the bias row broadcast over the nodes and added; each row's maximum (a reduce from `-∞`,
    then the maximum with `-∞` again) broadcast back and subtracted; the exponentials' row sums (a reduce from zero), their logarithm
    broadcast back and subtracted. -/
def logSoftmax (s : FVec Ideal S100000x40 .f32) (b : FVec Ideal S1x40 .f32) : FVec Ideal S100000x40 .f32 :=
  let z : FVec Ideal S100000x40 .f32 := addf s (broadcastInDim S100000x40 ![0, 1] bcast_S1x40_S100000x40_0_1 b)
  let mx : FVec Ideal S100000 .f32 :=
    maximumf (broadcastInDim S100000 ![] bcast_S_S100000 (constant S_ .f32 0xFF800000#32))
      (Host.reduce FloatOps.maximumf z (constant S_ .f32 0xFF800000#32) reducesTo_S100000x40_S100000_d1 h_S_)
  let sh : FVec Ideal S100000x40 .f32 :=
    subf z (broadcastInDim S100000x40 ![0, 1] bcast_S100000x1_S100000x40_0_1 (broadcastInDim S100000x1 ![0] bcast_S100000_S100000x1_0 mx))
  subf sh (broadcastInDim S100000x40 ![0, 1] bcast_S100000x1_S100000x40_0_1
    (Host.log (broadcastInDim S100000x1 ![0] bcast_S100000_S100000x1_0
      (Host.reduceAdd (Host.exp sh) (constant S_ .f32 0x00000000#32) reducesTo_S100000x40_S100000_d1 h_S_))))

/-! ## The layout operations read at an index -/

/-- The bias row broadcast over the nodes reads, at `(r, k)`, the row's entry `k`. -/
private theorem bcast_row_apply {α : Type} (x : S1x40.Idx → α) (r : Fin 100000) (k : Fin 40) :
    broadcastInDim S100000x40 ![0, 1] bcast_S1x40_S100000x40_0_1 x (ix2 r k) = x (ix2 (0 : Fin 1) k) :=
  broadcastInDim_apply _ _ x _ _ (fun a => by fin_cases a <;> rfl)

/-- A column of one entry per node broadcast over the classes reads, at `(r, k)`, node `r`'s entry. -/
private theorem bcast_col_apply {α : Type} (x : S100000x1.Idx → α) (r : Fin 100000) (k : Fin 40) :
    broadcastInDim S100000x40 ![0, 1] bcast_S100000x1_S100000x40_0_1 x (ix2 r k) = x (ix2 r (0 : Fin 1)) :=
  broadcastInDim_apply _ _ x _ _ (fun a => by fin_cases a <;> rfl)

/-- A vector of one entry per node set up as a column reads, at `(r, 0)`, entry `r`. -/
private theorem bcast_vec_apply {α : Type} (x : S100000.Idx → α) (r : Fin 100000) :
    broadcastInDim S100000x1 ![0] bcast_S100000_S100000x1_0 x (ix2 r (0 : Fin 1)) = x (ix1 r) :=
  broadcastInDim_apply _ _ x _ _ (fun a => by fin_cases a <;> rfl)

/-- A scalar broadcast over the nodes reads the scalar everywhere. -/
private theorem bcast_scalar_apply {α : Type} (x : S_.Idx → α) (j : S100000.Idx) :
    broadcastInDim S100000 ![] bcast_S_S100000 x j = x ix0 :=
  broadcastInDim_apply _ _ x _ _ (fun a => a.elim0)

/-! ## The two row reductions read at a node -/

/-- The shape fact of the row reductions in the form that names the index with a class put back. -/
private theorem reduces_rows : S100000x40.Reduces [1] S100000 := by decide

/-- Node `r` with class `k` put back on the reduced axis is the index `(r, k)`. -/
private theorem lift_row (h : S100000x40.Reduces [1] S100000) (r : Fin 100000) (k : Fin (S100000x40.size 1)) :
    h.lift (ix1 r) k = ix2 r (⟨k.val, k.isLt⟩ : Fin 40) := by
  funext a; apply Fin.ext
  fin_cases a <;> rfl

/-- The reduce with a maximum body from `-∞` over the classes is, at node `r`, the fold of `max` from `-∞` over
    that node's 40 entries. -/
private theorem rowMax_apply (z : FVec Ideal S100000x40 .f32) (r : Fin 100000) :
    Host.reduce FloatOps.maximumf z (constant S_ .f32 0xFF800000#32) reducesTo_S100000x40_S100000_d1 h_S_ (ix1 r)
      = (Finset.univ : Finset (Fin 40)).fold max Cert.Spec.negInf (fun k => z (ix2 r k)) := by
  rw [Host.reduce_eq_fold_single FloatOps.maximumf z _ reducesTo_S100000x40_S100000_d1 reduces_rows h_S_]
  have hf : (z ∘ reduces_rows.lift (ix1 r)) = fun k : Fin 40 => z (ix2 r k) :=
    funext fun k => congrArg z (lift_row reduces_rows r k)
  rw [hf]
  rfl

/-- The reduce with an add body from zero over the classes is, at node `r`, the sum of that node's 40 entries. -/
private theorem rowSum_apply (x : FVec Ideal S100000x40 .f32) (r : Fin 100000) :
    Host.reduceAdd x (constant S_ .f32 0x00000000#32) reducesTo_S100000x40_S100000_d1 h_S_ (ix1 r)
      = ∑ k : Fin 40, x (ix2 r k) := by
  show Ideal.hostReduceAdd reducesTo_S100000x40_S100000_d1 x (Ideal.ofBits .f32 0x00000000#32) (ix1 r) = _
  rw [Ideal.hostReduceAdd_single reducesTo_S100000x40_S100000_d1 reduces_rows, Ideal.ofBits_zero_f32, zero_add]
  exact Finset.sum_congr rfl (fun k _ => congrArg x (lift_row reduces_rows r k))

/-- The host's exponential at an index is the exponential of the element. -/
private theorem hostExp_apply (x : FVec Ideal S100000x40 .f32) (j : S100000x40.Idx) : Host.exp x j = Ideal.exp (x j) := rfl

/-- The host's logarithm at an index is the logarithm of the element. -/
private theorem hostLog_apply (x : FVec Ideal S100000x1 .f32) (j : S100000x1.Idx) : Host.log x j = Ideal.log (x j) := rfl

/-- From the logits `z` on, the printed chain at `(r, c)` is the log-softmax of row `r`, whose entries are `l`:
    with `M` the fold of `max` from `-∞` over `l`, it is `(l c - M) - log (∑ k, exp (l k - M))`. The extra maximum with
    `-∞` around the reduce changes nothing, `-∞` being below a fold that starts from it. -/
private theorem chain_apply (z : FVec Ideal S100000x40 .f32) (r : Fin 100000) (c : Fin 40) (l : Fin 40 → EReal)
    (hl : ∀ k, z (ix2 r k) = l k) :
    let mx : FVec Ideal S100000 .f32 :=
      maximumf (broadcastInDim S100000 ![] bcast_S_S100000 (constant S_ .f32 0xFF800000#32))
        (Host.reduce FloatOps.maximumf z (constant S_ .f32 0xFF800000#32) reducesTo_S100000x40_S100000_d1 h_S_)
    let sh : FVec Ideal S100000x40 .f32 :=
      subf z (broadcastInDim S100000x40 ![0, 1] bcast_S100000x1_S100000x40_0_1 (broadcastInDim S100000x1 ![0] bcast_S100000_S100000x1_0 mx))
    subf sh (broadcastInDim S100000x40 ![0, 1] bcast_S100000x1_S100000x40_0_1
      (Host.log (broadcastInDim S100000x1 ![0] bcast_S100000_S100000x1_0
        (Host.reduceAdd (Host.exp sh) (constant S_ .f32 0x00000000#32) reducesTo_S100000x40_S100000_d1 h_S_)))) (ix2 r c)
      = (l c - (Finset.univ : Finset (Fin 40)).fold max Cert.Spec.negInf l)
          - Ideal.log (∑ k : Fin 40, Ideal.exp (l k - (Finset.univ : Finset (Fin 40)).fold max Cert.Spec.negInf l)) := by
  intro mx sh
  have hmx : mx (ix1 r) = (Finset.univ : Finset (Fin 40)).fold max Cert.Spec.negInf l := by
    show maximumf _ _ (ix1 r) = _
    rw [maximumf_apply, bcast_scalar_apply, rowMax_apply, show (fun k : Fin 40 => z (ix2 r k)) = l from funext hl]
    exact max_eq_right ((Finset.le_fold_max _).mpr (Or.inl le_rfl))
  have hsh : ∀ k : Fin 40, sh (ix2 r k) = l k - (Finset.univ : Finset (Fin 40)).fold max Cert.Spec.negInf l := fun k => by
    show subf _ _ (ix2 r k) = _
    rw [subf_apply, bcast_col_apply, bcast_vec_apply, hmx, hl]
  rw [subf_apply, bcast_col_apply, hostLog_apply, bcast_vec_apply, rowSum_apply, hsh]
  exact congrArg (fun t => _ - Ideal.log t) (Finset.sum_congr rfl fun k _ => by rw [hostExp_apply, hsh])

/-- Entry by entry it is the row-wise log-softmax of `s + b`. -/
theorem logSoftmax_eq (s : FVec Ideal S100000x40 .f32) (b : FVec Ideal S1x40 .f32) :
    logSoftmax s b = Cert.Spec.lsm s b := by
  funext i
  obtain ⟨r, c, rfl⟩ : ∃ (r : Fin 100000) (c : Fin 40), i = ix2 r c := ⟨i 0, i 1, eq_ix2 i⟩
  have h := chain_apply (addf s (broadcastInDim S100000x40 ![0, 1] bcast_S1x40_S100000x40_0_1 b)) r c (Cert.Spec.logit s b r)
    (fun k => by rw [addf_apply, bcast_row_apply]; rfl)
  have hrow : Cert.Spec.row (ix2 r c) = r := rfl
  have hcol : Cert.Spec.col (ix2 r c) = c := rfl
  unfold Cert.Spec.lsm Cert.Spec.rowMax logSoftmax
  rw [hrow, hcol]
  exact h

end Cert.ReferenceIdeal.Dense2

end
-- ==== Proof.MaskOnes.lean ====
/-
  Where every source index lies in [-100000, 100000), the index counted from the end when negative is a row of the
  table (0 ≤ idx ≤ 99999), so the gathered rows are kept everywhere and the quiet-NaN fill is never taken.
-/
import proofs.«407292_j18777597018266_2_alg».proof.Proof.KernelAgg
import Idealize.ShloMosaic.Lib.Affine
import Idealize.ShloMosaic.Lib.ReduceAll
import Idealize.ShloMosaic.Lib.ValueIdx
import Idealize.ShloMosaic.Lib.StableHlo.Predicate

set_option maxRecDepth 16384

noncomputable section

namespace Cert.KernelIdeal.Agg

open Cert.KernelIdeal Cert.KernelIdeal.Facts₀ Cert.KernelIdeal.Facts
open Idealize.ShloMosaic Idealize.SL.Sem

variable {F : FTy → Type} [FloatOps F]

/-- Every source index is an index of the 100000 rows, counted from the front or from the end. -/
def InDomain (src : IVec S3200000 32) : Prop :=
  ∀ e : S3200000.Idx, (-100000 : Int) ≤ (src e).toInt ∧ (src e).toInt < 100000

/-- A word in [-100000, 100000), with 100000 added when it is negative, lies in [0, 99999]: the addition does not
    leave the signed range, so it is the addition of integers. -/
theorem wrap_word_range (s : BitVec 32) (h : (-100000 : Int) ≤ s.toInt ∧ s.toInt < 100000) :
    0 ≤ (Scalar.select (IntOp.cmpi .slt s 0#32) (IntOp.addi s 100000#32) s).toInt ∧
      (Scalar.select (IntOp.cmpi .slt s 0#32) (IntOp.addi s 100000#32) s).toInt ≤ 99999 := by
  have h0 : (0#32 : BitVec 32).toInt = 0 := by decide
  have h1 : (100000#32 : BitVec 32).toInt = 100000 := by decide
  unfold Scalar.select
  by_cases hc : IntOp.cmpi .slt s 0#32 = (1 : BitVec 1)
  · rw [if_pos hc]
    have hlt := IntOp.cmpi_slt.mp hc
    rw [h0] at hlt
    unfold IntOp.addi
    rw [BitVec.toInt_add, h1, Int.bmod_eq_of_le (by omega) (by omega)]
    omega
  · rw [if_neg hc]
    have hge : ¬ s.toInt < 0 := fun hh => hc (IntOp.cmpi_slt.mpr (by rw [h0]; exact hh))
    omega

/-- An and-fold from 1 over entries that are all 1 is 1. -/
theorem foldl_andi_one {ι : Type} (l : List ι) (x : ι → BitVec 1) (hx : ∀ i, x i = 1#1) :
    l.foldl (fun r i => IntOp.andi r (x i)) 1#1 = 1#1 := by
  induction l with
  | nil => rfl
  | cons a l ih =>
    rw [List.foldl_cons, hx a, show IntOp.andi (1#1 : BitVec 1) 1#1 = 1#1 from by decide]
    exact ih

/-- The wrapped index at an edge is the word's wrap. -/
theorem wrap_apply (src : IVec S3200000 32) (e : S3200000.Idx) :
    wrap src e = Scalar.select (IntOp.cmpi .slt (src e) 0#32) (IntOp.addi (src e) 100000#32) (src e) := rfl

/-- In the domain every entry of the column of wrapped indices is a row of the table. -/
theorem col_range (src : IVec S3200000 32) (hsrc : InDomain src) (i : S3200000x1.Idx) :
    0 ≤ (col src i).toInt ∧ (col src i).toInt ≤ 99999 := by
  show 0 ≤ (wrap src _).toInt ∧ (wrap src _).toInt ≤ 99999
  rw [wrap_apply]
  exact wrap_word_range _ (hsrc _)

/-- In the domain the row test holds at every edge. -/
theorem inRows_eq_one (src : IVec S3200000 32) (hsrc : InDomain src) (j : S3200000.Idx) : inRows src j = 1#1 := by
  unfold inRows
  rw [Host.reduce_eq_foldl]
  refine foldl_andi_one _ _ fun i => ?_
  show IntOp.andi (IntOp.cmpi .sge (col src i) 0#32) (IntOp.cmpi .sle (col src i) 99999#32) = 1#1
  have hr := col_range src hsrc i
  rw [IntOp.andi_eq_one, IntOp.cmpi_sge, IntOp.cmpi_sle,
    show (0#32 : BitVec 32).toInt = 0 from by decide, show (99999#32 : BitVec 32).toInt = 99999 from by decide]
  exact hr

/-- In the domain the width-16 gathered rows are the plain gather at the wrapped indices. -/
theorem take16_eq_gather (h : FVec F S100000x16 .f32) (src : IVec S3200000 32) (hsrc : InDomain src) :
    take16 h src = Host.gather gather_S100000x16_S3200000x1_S3200000x16_1_0_n_n_0_1_116 h (col src) := by
  funext i
  unfold take16 select
  show Scalar.select (inRows src _) _ _ = _
  rw [inRows_eq_one src hsrc]
  exact if_pos rfl

/-- In the domain the width-40 gathered rows are the plain gather at the wrapped indices. -/
theorem take40_eq_gather (h : FVec F S100000x40 .f32) (src : IVec S3200000 32) (hsrc : InDomain src) :
    take40 h src = Host.gather gather_S100000x40_S3200000x1_S3200000x40_1_0_n_n_0_1_140 h (col src) := by
  funext i
  unfold take40 select
  show Scalar.select (inRows src _) _ _ = _
  rw [inRows_eq_one src hsrc]
  exact if_pos rfl

end Cert.KernelIdeal.Agg

end
-- ==== Proof.Bridge.lean ====
/-
  The two programs' results are one function of the arguments, where every source index is an index of the table's
  100000 rows (counted from the front or from the end). Both results are the log-softmax of the second aggregation of
  the hidden layer of the first aggregation of the first projection. The dense stages meet in the specification; the
  aggregations are the same operations in both programs, once the kernel's fill for indices that are not rows of the
  table is known never to be taken; the bias rows are the same row, made by a shape cast on one side and by a broadcast
  on the other.
-/
import proofs.«407292_j18777597018266_2_alg».proof.Proof.KernelChain
import proofs.«407292_j18777597018266_2_alg».proof.Proof.RefChain
import proofs.«407292_j18777597018266_2_alg».proof.Proof.RefDense0
import proofs.«407292_j18777597018266_2_alg».proof.Proof.RefDense1
import proofs.«407292_j18777597018266_2_alg».proof.Proof.RefDense2
import proofs.«407292_j18777597018266_2_alg».proof.Proof.MaskOnes
import Idealize.ShloMosaic.Lib.Pipeline.Value

set_option maxRecDepth 16384

noncomputable section

namespace Cert.Bridge

open Idealize.ShloMosaic Idealize.SL.Sem

/-- A vector of `n` entries as a [1 × n] row: the shape cast and the broadcast along the second axis are the same row. -/
theorem row_eq {α : Type} {n : Nat} (b : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ b h = broadcastInDim ⟨2, ![1, n]⟩ ![1] h' b := by
  funext j
  refine (shapeCast_addUnit_apply ![n] b h j).trans ?_
  refine (broadcastInDim_apply ![1] h' b j (fun a => j a.succ) (fun a => ?_)).symm
  have ha : a = 0 := Subsingleton.elim _ _
  subst ha
  have hj := (j 1).isLt
  split
  · next h1 => change n = 1 at h1; change (j 1).val = 0; change (j 1).val < n at hj; omega
  · rfl

open Cert.KernelIdeal (S100000x512 S2x3200000 S3200000 S512x16 S16 S16x40 S40 S3200000x16 S3200000x40 S100000x16 S100000x40 S1x16 S1x40)

/-! ## The aggregation's operations are the same in both programs -/

theorem srcOf_eq (ei : IVec S2x3200000 32) : Cert.KernelIdeal.Agg.srcOf ei = Cert.ReferenceIdeal.Agg.srcOf ei := rfl
theorem dstOf_eq (ei : IVec S2x3200000 32) : Cert.KernelIdeal.Agg.dstOf ei = Cert.ReferenceIdeal.Agg.dstOf ei := rfl
theorem col_eq (src : IVec S3200000 32) : Cert.KernelIdeal.Agg.col src = Cert.ReferenceIdeal.Agg.col src := rfl
theorem gather16_eq (h : FVec Ideal S100000x16 .f32) (src : IVec S3200000 32) :
    Host.gather Cert.KernelIdeal.gather_S100000x16_S3200000x1_S3200000x16_1_0_n_n_0_1_116 h (Cert.KernelIdeal.Agg.col src)
      = Cert.ReferenceIdeal.Agg.gather16 (F := Ideal) h src := rfl
theorem gather40_eq (h : FVec Ideal S100000x40 .f32) (src : IVec S3200000 32) :
    Host.gather Cert.KernelIdeal.gather_S100000x40_S3200000x1_S3200000x40_1_0_n_n_0_1_140 h (Cert.KernelIdeal.Agg.col src)
      = Cert.ReferenceIdeal.Agg.gather40 (F := Ideal) h src := rfl
theorem spmm16_eq (t : FVec Ideal S3200000x16 .f32) (dst : IVec S3200000 32) (ev : FVec Ideal S3200000 .f32) :
    Cert.KernelIdeal.Agg.spmm16 t dst ev = Cert.ReferenceIdeal.Agg.spmm16 (F := Ideal) t dst ev := rfl
theorem spmm40_eq (t : FVec Ideal S3200000x40 .f32) (dst : IVec S3200000 32) (ev : FVec Ideal S3200000 .f32) :
    Cert.KernelIdeal.Agg.spmm40 t dst ev = Cert.ReferenceIdeal.Agg.spmm40 (F := Ideal) t dst ev := rfl
theorem bias16_eq (b : FVec Ideal S16 .f32) :
    shapeCast S1x16 b Cert.KernelIdeal.Facts₀.shapeCasts_S16_S1x16 = Cert.ReferenceIdeal.Agg.biasRow16 (F := Ideal) b :=
  row_eq (n := 16) b _ _
theorem bias40_eq (b : FVec Ideal S40 .f32) :
    shapeCast S1x40 b Cert.KernelIdeal.Facts₀.shapeCasts_S40_S1x40 = Cert.ReferenceIdeal.Agg.biasRow40 (F := Ideal) b :=
  row_eq (n := 40) b _ _

/-! ## The reference's dense stages, as composed and as specified -/

theorem hidden_eq (s : FVec Ideal S100000x16 .f32) (b : FVec Ideal S1x16 .f32) (w : FVec Ideal S16x40 .f32) :
    Cert.ReferenceIdeal.Agg.hidden (F := Ideal) s b w = Cert.ReferenceIdeal.Dense1.reluProj s b w := rfl
theorem logSoftmaxOf_eq (s : FVec Ideal S100000x40 .f32) (b : FVec Ideal S1x40 .f32) :
    Cert.ReferenceIdeal.Agg.logSoftmaxOf (F := Ideal) s b = Cert.ReferenceIdeal.Dense2.logSoftmax s b := rfl

/-! ## The two results -/

/-- With every source index in [-100000, 100000), the kernel's function of the arguments is the reference's. -/
theorem value_eq (x : FVec Ideal S100000x512 .f32) (ei : IVec S2x3200000 32) (ev : FVec Ideal S3200000 .f32) (w1 : FVec Ideal S512x16 .f32)
    (b1 : FVec Ideal S16 .f32) (w2 : FVec Ideal S16x40 .f32) (b2 : FVec Ideal S40 .f32)
    (hsrc : Cert.KernelIdeal.Agg.InDomain (Cert.KernelIdeal.Agg.srcOf ei)) :
    Cert.KernelIdeal.Chain.value x ei ev w1 b1 w2 b2 = Cert.ReferenceIdeal.Agg.value (F := Ideal) x ei ev w1 b1 w2 b2 := by
  unfold Cert.KernelIdeal.Chain.value Cert.ReferenceIdeal.Agg.value
  rw [Cert.KernelIdeal.Agg.take16_eq_gather _ _ hsrc, Cert.KernelIdeal.Agg.take40_eq_gather _ _ hsrc,
    hidden_eq, logSoftmaxOf_eq, Cert.ReferenceIdeal.Dense2.logSoftmax_eq, Cert.ReferenceIdeal.Dense1.reluProj_eq, Cert.ReferenceIdeal.Dense0.proj1_eq,
    gather16_eq, gather40_eq, spmm16_eq, spmm40_eq, bias16_eq, bias40_eq, srcOf_eq, dstOf_eq]

end Cert.Bridge

end
-- ==== Proof.lean ====
/-
  A two-layer graph convolution: out = log_softmax (A · relu (A · (x · W1) + b1) · W2 + b2), where A is a sparse matrix given
  as 3200000 edges (source row, destination row, value) and A · h gathers h's rows at the sources, scales each by its edge's
  value and adds it into the row of its destination.

  The kernel program computes the three dense stages (x · W1; relu (s + b1) · W2; the row-wise log-softmax of s + b2) in three
  pallas_calls over twenty blocks of 5000 rows and the two sparse products on the host between them; the reference program
  computes everything on the host. On the extended reals the dense stages are the same sums (a change of float format is
  the identity, and a matrix product into a zero accumulator is the plain sum of products), the row maximum is the same
  fold from -∞, and the sparse products are the same operations. The one difference is the gather: the kernel's counts a
  negative source index from the end and then puts a quiet-NaN pattern where the index is still not one of the 100000 rows,
  the reference's only counts from the end. Under the precondition, which keeps every source index in [-100000, 100000),
  the index counted from the end is always a row, the fill is never taken, and the two results are one function of the
  arguments.

  The frames of the two kernel programs are the generated ones; the reference's frame is its run with the result dropped;
  the idealization rewrote nothing, so `preserves` is trivial.
-/
import proofs.«407292_j18777597018266_2_alg».proof.Defs
import proofs.«407292_j18777597018266_2_alg».proof.Proof.Gen.Kernel
import proofs.«407292_j18777597018266_2_alg».proof.Proof.Gen.Kernel.Frame
import proofs.«407292_j18777597018266_2_alg».proof.Proof.Gen.KernelIdeal
import proofs.«407292_j18777597018266_2_alg».proof.Proof.Gen.KernelIdeal.Frame
import proofs.«407292_j18777597018266_2_alg».proof.Proof.Gen.ReferenceIdeal
import proofs.«407292_j18777597018266_2_alg».proof.Proof.Gen.Pre_finite_inputs
import proofs.«407292_j18777597018266_2_alg».proof.Proof.KernelRun
import proofs.«407292_j18777597018266_2_alg».proof.Proof.RefRun
import proofs.«407292_j18777597018266_2_alg».proof.Proof.KernelChain
import proofs.«407292_j18777597018266_2_alg».proof.Proof.RefChain
import proofs.«407292_j18777597018266_2_alg».proof.Proof.PreRange
import proofs.«407292_j18777597018266_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the same function of the arguments: the kernel's run ends at the kernel's function of its launch
    contents, the reference's at the reference's function of its own, the two memories agree on the arguments, and under the
    precondition the two functions are equal. -/
theorem algebraic : Cert.algebraic_KernelIdeal_ReferenceIdeal := by
  intro m ρ m' ρ' hpre hagree
  refine ⟨fun c => Cert.KernelIdeal.Chain.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Chain.result m ρ c), (h c).2⟩)
      (Cert.KernelIdeal.GenP.run_result (F := Ideal) m ρ)
  · refine (θ_run Cert.ReferenceIdeal.defs _ _).mono (fun r h c => ⟨(h c).1.trans ?_, (h c).2⟩)
      (Cert.ReferenceIdeal.ValueP.run (F := Ideal) m' ρ')
    refine (Cert.ReferenceIdeal.Agg.result (F := Ideal) (StableHlo.launchContents m' c)).trans ?_
    show Cert.ReferenceIdeal.Agg.value (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      = Cert.KernelIdeal.Chain.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    rw [(hagree c).1, (hagree c).2.1, (hagree c).2.2.1, (hagree c).2.2.2.1, (hagree c).2.2.2.2.1, (hagree c).2.2.2.2.2.1,
      (hagree c).2.2.2.2.2.2]
    exact (Cert.Bridge.value_eq _ _ _ _ _ _ _
      (Cert.Pre_finite_inputs.Range.src_in_domain (F := Ideal) _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
